-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4096x512 .f32 .bf16
  ∧ IdealRules.truncf_extf.Statement Cert.KernelIdeal.S4096x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : IVec S65536 32) (main_arg2 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536 : Shape := ⟨1, ![65536]⟩
abbrev S_ : Shape := ⟨0, ![]⟩
abbrev S1x65536 : Shape := ⟨2, ![1, 65536]⟩
abbrev S2x2048x512 : Shape := ⟨3, ![2, 2048, 512]⟩
abbrev S2x2048x3 : Shape := ⟨3, ![2, 2048, 3]⟩
abbrev S4096x512 : Shape := ⟨2, ![4096, 512]⟩
abbrev S1x4096 : Shape := ⟨2, ![1, 4096]⟩
abbrev S1x2048x512 : Shape := ⟨3, ![1, 2048, 512]⟩
abbrev S1x2048x3 : Shape := ⟨3, ![1, 2048, 3]⟩
abbrev S2048x512 : Shape := ⟨2, ![2048, 512]⟩
abbrev S2048x3 : Shape := ⟨2, ![2048, 3]⟩
abbrev S2048x4096 : Shape := ⟨2, ![2048, 4096]⟩
abbrev S4096 : Shape := ⟨1, ![4096]⟩
abbrev S4096x1 : Shape := ⟨2, ![4096, 1]⟩
abbrev S4096x3 : Shape := ⟨2, ![4096, 3]⟩
abbrev S2048x1 : Shape := ⟨2, ![2048, 1]⟩
abbrev S2048 : Shape := ⟨1, ![2048]⟩
abbrev S4x512 : Shape := ⟨2, ![4, 512]⟩
abbrev S4 : Shape := ⟨1, ![4]⟩

abbrev nBuf : Space → Nat
  | .hbm => 62
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S1x65536, .i32⟩
  | .hbm, ⟨8, _⟩ => ⟨S2x2048x512, .f32⟩
  | .hbm, ⟨9, _⟩ => ⟨S2x2048x3, .f32⟩
  | .hbm, ⟨10, _⟩ => ⟨S_, .f32⟩
  | .hbm, ⟨11, _⟩ => ⟨S2048x512, .f32⟩
  | .hbm, ⟨12, _⟩ => ⟨S_, .f32⟩
  | .hbm, ⟨13, _⟩ => ⟨S2048x3, .f32⟩
  | .hbm, ⟨14, _⟩ => ⟨S2048x1, .f32⟩
  | .hbm, ⟨15, _⟩ => ⟨S2048, .f32⟩
  | .hbm, ⟨16, _⟩ => ⟨S2048x1, .f32⟩
  | .hbm, ⟨17, _⟩ => ⟨S2048, .f32⟩
  | .hbm, ⟨18, _⟩ => ⟨S2048x1, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x1, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .i1⟩
  | .hbm, ⟨39, _⟩ => ⟨S2048, .f32⟩
  | .hbm, ⟨40, _⟩ => ⟨S4x512, .f32⟩
  | .hbm, ⟨41, _⟩ => ⟨S4x512, .f32⟩
  | .hbm, ⟨42, _⟩ => ⟨S4x512, .f32⟩
  | .hbm, ⟨43, _⟩ => ⟨S_, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S1x4096, .i32⟩
  | .local _ .vmem, ⟨3, _⟩ => ⟨S1x4096, .i32⟩
  | .local _ .vmem, ⟨4, _⟩ => ⟨S1x2048x512, .f32⟩
  | .local _ .vmem, ⟨5, _⟩ => ⟨S1x2048x512, .f32⟩
  | .local _ .vmem, ⟨6, _⟩ => ⟨S1x2048x3, .f32⟩
  | .local _ .vmem, ⟨7, _⟩ => ⟨S1x2048x3, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S65536 : S_.BroadcastsInDim S65536 (![] : Fin 0 → Fin S65536.rank)
  shapeCasts_S65536_S1x65536 : S65536.ShapeCasts S1x65536
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  shapeCasts_S2048x3_S1x2048x3 : S2048x3.ShapeCasts S1x2048x3
  iota_S2048x4096_d0_w32 : S2048x4096.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S2048x4096 : S1x4096.Broadcasts S2048x4096
  natLt_1_32 : 1 < 32
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  concatenates_S4096x1_S4096x1_S4096x1_S4096x3_d1 : Shape.Concatenates [S4096x1, S4096x1, S4096x1] S4096x3 1
  reducesTo_S2x2048x512_S2048x512_d0 : S2x2048x512.ReducesTo [0] S2048x512
  h_S_ : 0 < S_.numel
  reducesTo_S2x2048x3_S2048x3_d0 : S2x2048x3.ReducesTo [0] S2048x3
  slices_S2048x3_S2048x1_0_0 : S2048x3.Slices ![0, 0] S2048x1
  shapeCasts_S2048x1_S2048 : S2048x1.ShapeCasts S2048
  slices_S2048x3_S2048x1_0_1 : S2048x3.Slices ![0, 1] S2048x1
  slices_S2048x3_S2048x1_0_2 : S2048x3.Slices ![0, 2] S2048x1
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  reducesTo_S2048x512_S2048_d1 : S2048x512.ReducesTo [1] S2048
  shapeCasts_S2048_S4x512 : S2048.ShapeCasts S4x512
  reducesTo_S4x512_S4_d1 : S4x512.ReducesTo [1] S4
  bcast_S_S4 : S_.BroadcastsInDim S4 (![] : Fin 0 → Fin S4.rank)
  reducesTo_S4_S_d0 : S4.ReducesTo [0] S_
  dot_S2048x4096_S4096x512_S2048x512_1_0_0_1_n_n_wf : DotDims.WF S2048x4096 S4096x512 S2048x512 [1] [0] [0] [1] [] []
  dot_S2048x4096_S4096x3_S2048x3_1_0_0_1_n_n_wf : DotDims.WF S2048x4096 S4096x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x65536.size a
  hwx0_1 : ∀ i : grid0.Coords, EltTy.bits .i32 = 32 ∨ (Rect.block (s := S1x65536) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S2x2048x512.size a
  hwx0_2 : ∀ i : grid0.Coords, EltTy.bits .f32 = 32 ∨ (Rect.block (s := S2x2048x512) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x3.size a ≤ S2x2048x3.size a
  hwx0_3 : ∀ i : grid0.Coords, EltTy.bits .f32 = 32 ∨ (Rect.block (s := S2x2048x3) S1x2048x3.size (cc0_transform_3 i) (hinb0_3 i)).WholeWords (EltTy.packing .f32)

variable [Facts₀]

def dot_S2048x4096_S4096x512_S2048x512_1_0_0_1_n_n : DotDims S2048x4096 S4096x512 S2048x512 where
  lhsContracting := [1]
  rhsContracting := [0]
  lhsNonContracting := [0]
  rhsNonContracting := [1]
  lhsBatch := []
  rhsBatch := []
  wf := dot_S2048x4096_S4096x512_S2048x512_1_0_0_1_n_n_wf
def dot_S2048x4096_S4096x3_S2048x3_1_0_0_1_n_n : DotDims S2048x4096 S4096x3 S2048x3 where
  lhsContracting := [1]
  rhsContracting := [0]
  lhsNonContracting := [0]
  rhsNonContracting := [1]
  lhsBatch := []
  rhsBatch := []
  wf := dot_S2048x4096_S4096x3_S2048x3_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x2048x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x2048x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S_ : Shape := ⟨0, ![]⟩
abbrev S2048 : Shape := ⟨1, ![2048]⟩
abbrev S65536x1 : Shape := ⟨2, ![65536, 1]⟩
abbrev S2048x512 : Shape := ⟨2, ![2048, 512]⟩
abbrev S2048x1 : Shape := ⟨2, ![2048, 1]⟩
abbrev S4x512 : Shape := ⟨2, ![4, 512]⟩
abbrev S4 : Shape := ⟨1, ![4]⟩

abbrev nBuf : Space → Nat
  | .hbm => 67
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S2048, .f32⟩
  | .hbm, ⟨11, _⟩ => ⟨S65536x1, .i32⟩
  | .hbm, ⟨12, _⟩ => ⟨S2048, .f32⟩
  | .hbm, ⟨13, _⟩ => ⟨S_, .f32⟩
  | .hbm, ⟨14, _⟩ => ⟨S2048x512, .f32⟩
  | .hbm, ⟨15, _⟩ => ⟨S65536x1, .i32⟩
  | .hbm, ⟨16, _⟩ => ⟨S2048x512, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536, .f32⟩
  | .hbm, ⟨36, _⟩ => ⟨S_, .f32⟩
  | .hbm, ⟨37, _⟩ => ⟨S2048, .f32⟩
  | .hbm, ⟨38, _⟩ => ⟨S65536x1, .i32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .i1⟩
  | .hbm, ⟨44, _⟩ => ⟨S2048, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S_, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S2048 : S_.BroadcastsInDim S2048 (![] : Fin 0 → Fin S2048.rank)
  bcast_S65536_S65536x1_0 : S65536.BroadcastsInDim S65536x1 (![0] : Fin 1 → Fin S65536x1.rank)
  bcast_S_S2048x512 : S_.BroadcastsInDim S2048x512 (![] : Fin 0 → Fin S2048x512.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  reducesTo_S65536x512_S65536_d1 : S65536x512.ReducesTo [1] S65536
  h_S_ : 0 < S_.numel
  shapeCasts_S2048_S4x512 : S2048.ShapeCasts S4x512
  reducesTo_S4x512_S4_d1 : S4x512.ReducesTo [1] S4
  bcast_S_S4 : S_.BroadcastsInDim S4 (![] : Fin 0 → Fin S4.rank)
  reducesTo_S4_S_d0 : S4.ReducesTo [0] S_
  scatter_S2048_S65536x1_S65536_n_0_0_1_wf : ScatterDims.WF S2048 S65536x1 S65536 [] [0] [0] 1
  scatter_S2048x512_S65536x1_S65536x512_1_0_0_1_wf : ScatterDims.WF S2048x512 S65536x1 S65536x512 [1] [0] [0] 1
  gather_S2048x512_S65536x1_S65536x512_1_0_n_n_0_1_1512_wf : GatherDims.WF S2048x512 S65536x1 S65536x512 [1] [0] [] [0] [] 1 ![1, 512]

variable [Facts₀]

def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def scatter_S2048x512_S65536x1_S65536x512_1_0_0_1 : ScatterDims S2048x512 S65536x1 S65536x512 where
  updateWindowDims := [1]
  insertedWindowDims := [0]
  scatterDimsToOperandDims := [0]
  indexVectorDim := 1
  wf := scatter_S2048x512_S65536x1_S65536x512_1_0_0_1_wf
def gather_S2048x512_S65536x1_S65536x512_1_0_n_n_0_1_1512 : GatherDims S2048x512 S65536x1 S65536x512 where
  offsetDims := [1]
  collapsedSliceDims := [0]
  operandBatchingDims := []
  startIndicesBatchingDims := []
  startIndexMap := [0]
  indexVectorDim := 1
  sliceSizes := ![1, 512]
  wf := gather_S2048x512_S65536x1_S65536x512_1_0_n_n_0_1_1512_wf

class Facts : Prop extends Facts₀ where

variable [Facts]
-- ==== Proof.KCase.lean ====
import proofs.«431362_j84052509982804_3_alg».proof.Proof.Gen.KernelIdeal.Frame
import Idealize.ShloMosaic.Lib.Pipeline.Value
import Idealize.ShloMosaic.Lib.Tactic

/-!
# What one run of the body leaves in the two output blocks

At the first block of a half the body zeroes both output blocks, reads the zeros back and adds the block's
contribution; at every other block it adds the contribution to what the block before left. Either way each output
block ends as ONE stored value: the body's arithmetic applied to the segment words and features of the block and to
the previous contents (zeros at a first block).
-/

noncomputable section

open Idealize.ShloMosaic Idealize.ShloMosaic.TcCoe Idealize.SL.Sem

namespace Cert.KernelIdeal.Case

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero accumulator of the auxiliary product. -/
abbrev zero3 : FVec F S2048x3 .f32 := constant S2048x3 .f32 0x00000000#32

/-- A later block: the sums block ends at the body's arithmetic over what the block before left. -/
theorem outB2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x2048x512 .f32) (harg4 : arg4.IsWhole) (arg5 : Memref sig .tc .vmem S1x2048x3 .f32) (harg5 : arg5.IsWhole) (hc0 : ¬cond0_0 i)
    (x0 : Vec F S4096x512 .f32) (x1 : Vec F S1x4096 .i32) (xo2 : Vec F S1x2048x512 .f32) (xo3 : Vec F S1x2048x3 .f32) :
    out0_B_2 c i arg2 harg2 arg3 harg3 arg4 harg4 arg5 harg5 hc0 x0 x1 xo2 xo3 = k0_pay5 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread,
    View.ld_unit_zero (S := S4096x512) hz2, View.ld_unit_zero (S := S1x4096) hz2, View.ld_unit_zero (S := S1x2048x512) hz3]

/-- A later block: the auxiliary block ends at the body's arithmetic over what the block before left. -/
theorem outB3 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x2048x512 .f32) (harg4 : arg4.IsWhole) (arg5 : Memref sig .tc .vmem S1x2048x3 .f32) (harg5 : arg5.IsWhole) (hc0 : ¬cond0_0 i)
    (x0 : Vec F S4096x512 .f32) (x1 : Vec F S1x4096 .i32) (xo2 : Vec F S1x2048x512 .f32) (xo3 : Vec F S1x2048x3 .f32) :
    out0_B_3 c i arg2 harg2 arg3 harg3 arg4 harg4 arg5 harg5 hc0 x0 x1 xo2 xo3 = k0_pay1 (k0_pay4 x1) (k0_pay6 x0) (k0_pay7 xo3) zero3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg5.read_unread,
    View.ld_unit_zero (S := S4096x512) hz2, View.ld_unit_zero (S := S1x4096) hz2, View.ld_unit_zero (S := S1x2048x3) hz3]

/-- A first block: the sums block ends at the body's arithmetic over zeros. -/
theorem outA2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x2048x512 .f32) (harg4 : arg4.IsWhole) (arg5 : Memref sig .tc .vmem S1x2048x3 .f32) (harg5 : arg5.IsWhole) (hc0 : cond0_0 i)
    (x0 : Vec F S4096x512 .f32) (x1 : Vec F S1x4096 .i32) :
    out0_A_2 c i arg2 harg2 arg3 harg3 arg4 harg4 arg5 harg5 hc0 x0 x1 = k0_pay5 x1 x0 k0_pay2 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x2048x512) hz3]
  simp only [View.readAt_eq_ld, harg2.read_unread, harg3.read_unread, View.readCov_unit_zero (S := S1x2048x512) _ hz3,
    View.ld_unit_zero (S := S4096x512) hz2, View.ld_unit_zero (S := S1x4096) hz2, View.ld_unit_zero (S := S1x2048x512) hz3]

/-- A first block: the auxiliary block ends at the body's arithmetic over zeros. -/
theorem outA3 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x2048x512 .f32) (harg4 : arg4.IsWhole) (arg5 : Memref sig .tc .vmem S1x2048x3 .f32) (harg5 : arg5.IsWhole) (hc0 : cond0_0 i)
    (x0 : Vec F S4096x512 .f32) (x1 : Vec F S1x4096 .i32) :
    out0_A_3 c i arg2 harg2 arg3 harg3 arg4 harg4 arg5 harg5 hc0 x0 x1 = k0_pay1 (k0_pay4 x1) (k0_pay6 x0) (k0_pay7 k0_pay3) zero3 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x2048x3) hz3]
  simp only [View.readAt_eq_ld, harg2.read_unread, harg3.read_unread, View.readCov_unit_zero (S := S1x2048x3) _ hz3,
    View.ld_unit_zero (S := S4096x512) hz2, View.ld_unit_zero (S := S1x4096) hz2, View.ld_unit_zero (S := S1x2048x3) hz3]

end Cert.KernelIdeal.Case

end
-- ==== Proof.SegSpec.lean ====
import Idealize.ShloMosaic.PureOps.Ideal
import Idealize.ShloMosaic.PureOps.Ideal.Laws
import Idealize.ShloMosaic.Lib.ValueIdx

/-!
# Segment statistics: the common specification

Rows `n < 65536` carry a feature vector `x n : Fin 512 → EReal` and a segment word `s n`. Group `g < 2048`
owns the rows whose word, read as a signed integer, is `g`; a word outside `[0, 2048)` belongs to no group.
Per group: the count, the coordinate sums, the sum of squared norms, the mean (sums over `max count 1`).

Two formulas for the mean squared distance of a group's rows to the group mean:
* the direct one, `(∑ rows ∑ d (x - mean)²) / max count 1`;
* the expanded one, `max (∑ rows ‖x‖² - count · ‖mean‖², 0) / max count 1`.
Over real entries they agree (`distK_eq_distR`): expanding the square, the cross term is `-2 count ‖mean‖²`,
and the direct form is a sum of squares, so the clamp at zero does nothing.

The expanded form is fed by sums taken block by block: 16 blocks of 4096 consecutive rows, a row selected by the
indicator `oh` of "its word is the group's number"; the blocks of one half (8 of them) are added in order.
-/

noncomputable section

namespace Cert.SegSpec

open Idealize.ShloMosaic

/-! ## The inputs, as both programs read them -/

/-- Row `n`'s segment word: `demographic · 512 + label`, in 32-bit arithmetic. -/
def segW (a1 a2 : IVec (⟨1, ![65536]⟩ : Shape) 32) (n : Fin 65536) : BitVec 32 :=
  IntOp.addi (IntOp.muli (a2 (ValueIdx.ix1 n)) 512#32) (a1 (ValueIdx.ix1 n))

/-- Row `n`'s feature `d`. -/
def feat (x0 : (⟨2, ![65536, 512]⟩ : Shape).Idx → EReal) (n : Fin 65536) (d : Fin 512) : EReal := x0 (ValueIdx.ix2 n d)

/-! ## Groups and their statistics -/

/-- The rows of group `g`: those whose segment word, read signed, is `g`. -/
def rows (s : Fin 65536 → BitVec 32) (g : Fin 2048) : Finset (Fin 65536) :=
  Finset.univ.filter fun n => (s n).toInt = (g.val : Int)

/-- How many rows group `g` has, as an extended real. -/
def cnt (s : Fin 65536 → BitVec 32) (g : Fin 2048) : EReal := ∑ _n ∈ rows s g, (1 : EReal)

/-- Coordinate `d` summed over the group's rows. -/
def sums (s : Fin 65536 → BitVec 32) (x : Fin 65536 → Fin 512 → EReal) (g : Fin 2048) (d : Fin 512) : EReal :=
  ∑ n ∈ rows s g, x n d

/-- The squared norms of the group's rows, summed. -/
def sqs (s : Fin 65536 → BitVec 32) (x : Fin 65536 → Fin 512 → EReal) (g : Fin 2048) : EReal :=
  ∑ n ∈ rows s g, ∑ d : Fin 512, x n d * x n d

/-- The divisor: the count, or one for an empty group. -/
def safe (s : Fin 65536 → BitVec 32) (g : Fin 2048) : EReal := max (cnt s g) 1

/-- The group mean, coordinate `d`. -/
def mean (s : Fin 65536 → BitVec 32) (x : Fin 65536 → Fin 512 → EReal) (g : Fin 2048) (d : Fin 512) : EReal :=
  Ideal.div (sums s x g d) (safe s g)

/-- Mean squared distance to the group mean, expanded: `max (∑‖x‖² - count · ‖mean‖², 0) / max count 1`. -/
def distK (s : Fin 65536 → BitVec 32) (x : Fin 65536 → Fin 512 → EReal) (g : Fin 2048) : EReal :=
  Ideal.div (max (sqs s x g - cnt s g * ∑ d : Fin 512, mean s x g d * mean s x g d) 0) (safe s g)

/-- Mean squared distance to the group mean, direct: `(∑ rows ∑ d (x - mean)²) / max count 1`. -/
def distR (s : Fin 65536 → BitVec 32) (x : Fin 65536 → Fin 512 → EReal) (g : Fin 2048) : EReal :=
  Ideal.div (∑ n ∈ rows s g, ∑ d : Fin 512, (x n d - mean s x g d) * (x n d - mean s x g d)) (safe s g)

/-! ## The same statistics, block by block -/

/-- The indicator of "word `w` is group `g`'s number". -/
def oh (w : BitVec 32) (g : Fin 2048) : EReal := if w = BitVec.ofNat 32 g.val then 1 else 0

/-- Row `k` of block `t`. -/
def row (t : Fin 16) (k : Fin 4096) : Fin 65536 := ⟨t.val * 4096 + k.val, by omega⟩

/-- Block `j` of half `c`. -/
def pt (c : Fin 2) (j : Fin 8) : Fin 16 := ⟨c.val * 8 + j.val, by omega⟩

/-- Block `t`'s share of group `g`'s coordinate sum. -/
def blkSum (s : Fin 65536 → BitVec 32) (x : Fin 65536 → Fin 512 → EReal) (t : Fin 16) (g : Fin 2048) (d : Fin 512) : EReal :=
  ∑ k : Fin 4096, oh (s (row t k)) g * x (row t k) d

/-- Block `t`'s share of group `g`'s count. -/
def blkCnt (s : Fin 65536 → BitVec 32) (t : Fin 16) (g : Fin 2048) : EReal :=
  ∑ k : Fin 4096, oh (s (row t k)) g * 1

/-- Block `t`'s share of group `g`'s sum of squared norms. -/
def blkSq (s : Fin 65536 → BitVec 32) (x : Fin 65536 → Fin 512 → EReal) (t : Fin 16) (g : Fin 2048) : EReal :=
  ∑ k : Fin 4096, oh (s (row t k)) g * ∑ d : Fin 512, x (row t k) d * x (row t k) d

/-! ## Adding the blocks of one half in order -/

/-- The running total after block `n`: restarted at the first block of each half (`n` divisible by 8),
    otherwise the total after block `n - 1` plus block `n`'s share. -/
def acc (P : Fin 16 → EReal) : (n : ℕ) → n < 16 → EReal
  | 0, h => P ⟨0, h⟩
  | n + 1, h => if (n + 1) % 8 = 0 then P ⟨n + 1, h⟩ else acc P n (Nat.lt_of_succ_lt h) + P ⟨n + 1, h⟩

/-! ## The last stretch, common to both programs

From the per-group counts and mean distances to the scalar: a group is present when its count is positive; per
demographic (4 of them, 512 groups each) the present groups' mean distances are averaged (over `max (number present) 1`);
the result is the mean absolute deviation of those 4 averages from their own mean. -/

abbrev T2048 : Shape := ⟨1, ![2048]⟩
abbrev T4x512 : Shape := ⟨2, ![4, 512]⟩
abbrev T4 : Shape := ⟨1, ![4]⟩
abbrev T0 : Shape := ⟨0, ![]⟩

/-- The common last stretch, as one function of the per-group counts and mean distances. -/
def tail {F : FTy → Type} [FloatOps F] (hb : T0.BroadcastsInDim T2048 (![] : Fin 0 → Fin T2048.rank)) (hc : T2048.ShapeCasts T4x512)
    (hr1 : T4x512.ReducesTo [1] T4) (hb4 : T0.BroadcastsInDim T4 (![] : Fin 0 → Fin T4.rank)) (hr0 : T4.ReducesTo [0] T0)
    (h0 : 0 < T0.numel) (count dist : FVec F T2048 .f32) : FVec F T0 .f32 :=
  let present : FVec F T4x512 .f32 :=
    shapeCast T4x512 (uitofp (F := F) .f32 (cmpf (F := F) .ogt count (broadcastInDim T2048 ![] hb (constant (F := F) T0 .f32 0x00000000#32)))) hc
  let perDemog : FVec F T4 .f32 :=
    Host.divf (Host.reduceAdd (mulf (shapeCast T4x512 dist hc) present) (constant (F := F) T0 .f32 0x00000000#32) hr1 h0)
      (maximumf (Host.reduceAdd present (constant (F := F) T0 .f32 0x00000000#32) hr1 h0)
        (broadcastInDim T4 ![] hb4 (constant (F := F) T0 .f32 0x3F800000#32)))
  let avg : FVec F T0 .f32 :=
    Host.divf (Host.reduceAdd perDemog (constant (F := F) T0 .f32 0x00000000#32) hr0 h0) (constant (F := F) T0 .f32 0x40800000#32)
  Host.divf (Host.reduceAdd (Host.absf (subf perDemog (broadcastInDim T4 ![] hb4 avg))) (constant (F := F) T0 .f32 0x00000000#32) hr0 h0)
    (constant (F := F) T0 .f32 0x40800000#32)

end Cert.SegSpec

end
-- ==== Proof.KBlocks.lean ====
import proofs.«431362_j84052509982804_3_alg».proof.Proof.Gen.KernelIdeal.Frame
import proofs.«431362_j84052509982804_3_alg».proof.Proof.SegSpec
import Idealize.ShloMosaic.Lib.Pipeline.Value
import Idealize.ShloMosaic.Lib.StableHlo.Run
import Idealize.ShloMosaic.Lib.ValueIdx
import Idealize.ShloMosaic.Lib.Tactic

/-!
# The two input blocks at a grid point

Point `t` of the grid (16 points) reads rows `4096 t … 4096 t + 4095`: the feature block is those rows of the feature
array, and the segment block is those entries of the word row `demographic · 512 + label`, which the program computes
before the region and lays out as one row of 65536.
-/

noncomputable section

open Idealize.ShloMosaic Idealize.ShloMosaic.TcCoe Idealize.SL.Sem Idealize.ShloMosaic.ValueIdx

namespace Cert.KernelIdeal.Blocks

open Cert.KernelIdeal Cert.KernelIdeal.Gen Cert.SegSpec

variable {F : FTy → Type} [FloatOps F]
variable (m : (ℓ : Loc nD τ sig) → Buf (Elt F) ℓ)

/-- A grid point as a number below 16. -/
def pt16 (t : Fin cfg0.N) : Fin 16 := ⟨t.val, lt_of_lt_of_eq t.isLt N_0⟩

/-- The feature block at point `t`, as a vector of its literal shape. -/
abbrev xblk (c : Dev nD) (t : Fin cfg0.N) : Vec F S4096x512 .f32 := iblk m c 0 t
/-- The segment block at point `t`, as a vector of its literal shape. -/
abbrev sblk (c : Dev nD) (t : Fin cfg0.N) : Vec F S1x4096 .i32 := iblk m c 1 t

/-- Where the two input windows' blocks sit: block row `t` of the features, block column `t` of the word row. -/
theorem index_in : ∀ t : Fin cfg0.N, (win0_0.index t 0 = t.val ∧ win0_0.index t 1 = 0) ∧ (win0_1.index t 0 = 0 ∧ win0_1.index t 1 = t.val) :=
  (by decide +kernel : ∀ t : Fin grid0.N, (win0_0.index t 0 = t.val ∧ win0_0.index t 1 = 0) ∧ (win0_1.index t 0 = 0 ∧ win0_1.index t 1 = t.val))

/-- Entry `(k, d)` of the feature block at point `t` is entry `(4096 t + k, d)` of the feature array. -/
theorem xblk_apply (c : Dev nD) (t : Fin cfg0.N) (k : Fin 4096) (d : Fin 512) :
    xblk m c t (ix2 k d) = m ((c : Thread nD τ).loc main_arg0) (ix2 (row (pt16 t) k) d) := by
  have hi := (index_in t).1
  unfold xblk iblk
  rw [View.read_apply]
  show V m c main_arg0 _ = _
  rw [V_main_arg0]
  congr 1
  funext a
  apply Fin.ext
  match a with
  | ⟨0, _⟩ => show win0_0.index t 0 * 4096 + 1 * k.val = t.val * 4096 + k.val; rw [hi.1]; omega
  | ⟨1, _⟩ => show win0_0.index t 1 * 512 + 1 * d.val = d.val; rw [hi.2]; omega

/-- The word row as the region finds it: the words, laid out as one row. -/
theorem V_words (c : Dev nD) :
    (V m c main_v3 : S1x65536.Idx → BitVec 32)
      = shapeCast S1x65536 (addi (muli (m ((c : Thread nD τ).loc main_arg2)) (broadcastInDim S65536 ![] bcast_S_S65536 (constantI S_ 32 512#32)))
          (m ((c : Thread nD τ).loc main_arg1))) shapeCasts_S65536_S1x65536 := by
  show StableHlo.after hostOps0 (fun b => m (c, b)) (Proc.devRef .tc main_v3) = _
  after_results
  rfl

/-- Entry `(0, k)` of the segment block at point `t` is row `4096 t + k`'s word. -/
theorem sblk_apply (c : Dev nD) (t : Fin cfg0.N) (k : Fin 4096) :
    sblk m c t (ix2 (0 : Fin 1) k) = segW (m ((c : Thread nD τ).loc main_arg1)) (m ((c : Thread nD τ).loc main_arg2)) (row (pt16 t) k) := by
  have hi := (index_in t).2
  unfold sblk iblk
  rw [View.read_apply]
  show V m c main_v3 _ = _
  rw [V_words]
  refine (shapeCast_apply _ shapeCasts_S65536_S1x65536 _ (ix1 (row (pt16 t) k)) ?_).trans ?_
  · rw [Shape.rowMajor_val_one, Shape.rowMajor_val_two]
    show t.val * 4096 + k.val = (win0_1.index t 0 * 1 + 1 * 0) * 65536 + (win0_1.index t 1 * 4096 + 1 * k.val)
    rw [hi.1, hi.2]; omega
  · rfl

end Cert.KernelIdeal.Blocks

end
-- ==== Proof.KPay.lean ====
import proofs.«431362_j84052509982804_3_alg».proof.Proof.Gen.KernelIdeal.Skeleton
import proofs.«431362_j84052509982804_3_alg».proof.Proof.SegSpec
import Idealize.ShloMosaic.PureOps.Ideal.Laws
import Idealize.ShloMosaic.Lib.ValueIdx
import Idealize.ShloMosaic.Lib.Pipeline.Value
import Idealize.ShloMosaic.Lib.ValueLayout

/-!
# The kernel body's stored values, read at an index

The one-hot matrix has a one at `(g, k)` when row `k` of the block carries group `g`'s number. The sums block is the
previous contents plus the one-hot times the features, twice: once with the features, once with the features minus
themselves, which over real entries is a product with zero.
-/

noncomputable section

namespace Cert.KernelIdeal.Pay

open Cert.KernelIdeal Cert.KernelIdeal.Gen Idealize.ShloMosaic Idealize.ShloMosaic.ValueIdx Cert.SegSpec

/-- The reset block of the sums is zero. -/
theorem pay2_apply (i : S1x2048x512.Idx) : (k0_pay2 (F := Ideal)) i = (0 : EReal) := by
  obtain ⟨u, g, d, rfl⟩ : ∃ (u : Fin 1) (g : Fin 2048) (d : Fin 512), i = ix3 u g d := ⟨_, _, _, eq_ix3 i⟩
  unfold k0_pay2
  refine (shapeCast_ab_1ab_apply _ _ u g d).trans ?_
  exact Ideal.ofBits_zero_f32

/-- The reset block of the auxiliary sums is zero. -/
theorem pay3_apply (i : S1x2048x3.Idx) : (k0_pay3 (F := Ideal)) i = (0 : EReal) := by
  obtain ⟨u, g, d, rfl⟩ : ∃ (u : Fin 1) (g : Fin 2048) (d : Fin 3), i = ix3 u g d := ⟨_, _, _, eq_ix3 i⟩
  unfold k0_pay3
  refine (shapeCast_ab_1ab_apply _ _ u g d).trans ?_
  exact Ideal.ofBits_zero_f32

/-- An equality comparison of two words is the bit of "they are equal". -/
private theorem cmpi_eq_word (a b : BitVec 32) : IntOp.cmpi .eq a b = if a = b then 1#1 else 0#1 := by
  unfold IntOp.cmpi
  by_cases h : a = b
  · rw [if_pos h]; simp [h]
  · have hb : (a == b) = false := beq_eq_false_iff_ne.mpr h
    rw [if_neg h]; simp [hb]

/-- The one-hot matrix at `(g, k)`: one when row `k`'s word is `g`'s number. -/
theorem pay4_apply (v4 : Vec Ideal S1x4096 .i32) (g : Fin 2048) (k : Fin 4096) :
    k0_pay4 (F := Ideal) v4 (ix2 g k) = oh (v4 (ix2 (0 : Fin 1) k)) g := by
  unfold k0_pay4 oh
  show FloatOps.sitofp (F := Ideal) .f32
      ((IntOp.cmpi .eq
          (broadcastTo S2048x4096 (shapeCast S1x4096 v4 shapeCasts_S1x4096_S1x4096) broadcasts_S1x4096_S2048x4096 (ix2 g k))
          (iota .tc S2048x4096 32 [0] iota_S2048x4096_d0_w32 (ix2 g k))).setWidth 32) = _
  rw [broadcastTo_1b_ab_apply, shapeCast_self, iota_single_apply]
  show ((((IntOp.cmpi .eq (v4 (ix2 (0 : Fin 1) k)) (BitVec.ofNat 32 g.val)).setWidth 32).toInt : ℝ) : EReal) = _
  by_cases h : v4 (ix2 (0 : Fin 1) k) = BitVec.ofNat 32 g.val
  · rw [if_pos h, cmpi_eq_word, if_pos h]
    norm_num
  · rw [if_neg h, cmpi_eq_word, if_neg h]
    norm_num

/-! ## The one-hot times the features, at an index -/

/-- The product's dimension numbers: rows of the one-hot against columns of the features, contracted over the
    block's 4096 rows. -/
private abbrev D512 := dot_S2048x4096_S4096x512_S2048x512_1_0_0_1_n_n

private theorem lhs512_0 (j : S2048x512.Idx) (k : D512.contr.Idx) : (D512.lhsIdx j k 0 : ℕ) = j 0 := by
  simp [DotDims.lhsIdx, D512, dot_S2048x4096_S4096x512_S2048x512_1_0_0_1_n_n]; rfl
private theorem lhs512_1 (j : S2048x512.Idx) (k : D512.contr.Idx) : (D512.lhsIdx j k 1 : ℕ) = k ⟨0, by decide⟩ :=
  DotDims.lhsIdx_val_of_single D512 rfl j k
private theorem rhs512_0 (j : S2048x512.Idx) (k : D512.contr.Idx) : (D512.rhsIdx j k 0 : ℕ) = k ⟨0, by decide⟩ :=
  DotDims.rhsIdx_val_of_single D512 rfl j k
private theorem rhs512_1 (j : S2048x512.Idx) (k : D512.contr.Idx) : (D512.rhsIdx j k 1 : ℕ) = j 1 := by
  simp [DotDims.rhsIdx, D512, dot_S2048x4096_S4096x512_S2048x512_1_0_0_1_n_n]; rfl

/-- The matrix product into the zero block, at `(g, d)`: the sum over the block's rows of the products. -/
private theorem matmul512_apply (lhs : FVec Ideal S2048x4096 .bf16) (rhs : FVec Ideal S4096x512 .bf16) (g : Fin 2048) (d : Fin 512) :
    FloatOps.matmul D512 none lhs rhs (constant (F := Ideal) S2048x512 .f32 0x00000000#32) (ix2 g d)
      = ∑ k : Fin 4096, lhs (ix2 g k) * rhs (ix2 k d) := by
  refine (Ideal.matmul_constant_zero_apply D512 none lhs rhs (ix2 g d)).trans ?_
  rw [← Equiv.sum_comp (contrEquiv1 D512 4096 rfl rfl).symm]
  refine Finset.sum_congr rfl fun k _ => ?_
  have hk : (((contrEquiv1 D512 4096 rfl rfl).symm k) ⟨0, by decide⟩ : ℕ) = k.val := contrEquiv1_symm_val D512 4096 rfl rfl k
  congr 2
  · exact Shape.idx_ext₂ (lhs512_0 _ _) ((lhs512_1 _ _).trans hk)
  · exact Shape.idx_ext₂ ((rhs512_0 _ _).trans hk) (rhs512_1 _ _)

/-- The sums block after the body, at `(g, d)`: what it held plus the block's rows of group `g`, coordinate `d`. -/
theorem pay5_apply (v4 : Vec Ideal S1x4096 .i32) (v11 : Vec Ideal S4096x512 .f32) (v16 : Vec Ideal S1x2048x512 .f32)
    (hv : ∀ i, ∃ r : ℝ, v11 i = (r : EReal)) (g : Fin 2048) (d : Fin 512) :
    k0_pay5 (F := Ideal) v4 v11 v16 (ix3 (0 : Fin 1) g d)
      = v16 (ix3 (0 : Fin 1) g d) + ∑ k : Fin 4096, oh (v4 (ix2 (0 : Fin 1) k)) g * v11 (ix2 k d) := by
  unfold k0_pay5
  refine (shapeCast_ab_1ab_apply _ _ (0 : Fin 1) g d).trans ?_
  show shapeCast S2048x512 v16 shapeCasts_S1x2048x512_S2048x512 (ix2 g d)
      + (FloatOps.matmul D512 none (k0_pay4 v4) (truncf .bf16 v11 bitsLt_bf16_f32 : FVec Ideal S4096x512 .bf16)
            (constant (F := Ideal) S2048x512 .f32 0x00000000#32) (ix2 g d)
        + FloatOps.matmul D512 none (k0_pay4 v4) (truncf .bf16 (subf v11 v11) bitsLt_bf16_f32 : FVec Ideal S4096x512 .bf16)
            (constant (F := Ideal) S2048x512 .f32 0x00000000#32) (ix2 g d)) = _
  rw [shapeCast_1ab_ab_apply, matmul512_apply, matmul512_apply]
  -- the second product: every feature minus itself is zero
  have h2 : ∑ k : Fin 4096, k0_pay4 (F := Ideal) v4 (ix2 g k)
      * (truncf .bf16 (subf v11 v11) bitsLt_bf16_f32 : FVec Ideal S4096x512 .bf16) (ix2 k d) = 0 := by
    refine Finset.sum_eq_zero fun k _ => ?_
    show _ * (v11 (ix2 k d) - v11 (ix2 k d) : EReal) = 0
    obtain ⟨r, hr⟩ := hv (ix2 k d)
    rw [hr, ← EReal.coe_sub, sub_self, EReal.coe_zero, mul_zero]
  rw [h2, add_zero]
  congr 1
  refine Finset.sum_congr rfl fun k _ => ?_
  rw [pay4_apply]
  rfl

end Cert.KernelIdeal.Pay

end
-- ==== Proof.SegBlocks.lean ====
import proofs.«431362_j84052509982804_3_alg».proof.Proof.SegSpec

/-!
# The group statistics, summed block by block

Rows are cut into 16 blocks of 4096; a block's share of a group's statistic keeps the rows whose word is the group's
number. The shares of all 16 blocks (2 halves of 8) add up to the statistic, because `(c, j, k) ↦ (8c + j)·4096 + k`
is a bijection onto the rows and an indicator-weighted sum is the sum over the selected rows.
-/

noncomputable section

namespace Cert.SegSpec

open Idealize.ShloMosaic

/-- A word is group `g`'s number exactly when, read signed, it is `g`. -/
theorem eq_ofNat_iff_toInt (w : BitVec 32) (g : Fin 2048) : w = BitVec.ofNat 32 g.val ↔ w.toInt = (g.val : Int) := by
  have hg := g.isLt
  have hw := w.isLt
  -- a group number is below 2^31, so as a word it is its own signed reading
  have hmod : g.val % 2 ^ 32 = g.val := Nat.mod_eq_of_lt (by omega)
  rw [BitVec.toInt_eq_toNat_cond]
  constructor
  · rintro rfl
    rw [BitVec.toNat_ofNat, hmod]
    split_ifs <;> omega
  · intro h
    apply BitVec.eq_of_toNat_eq
    rw [BitVec.toNat_ofNat, hmod]
    split_ifs at h <;> omega

/-- The indicator times a value keeps the value on the group's rows and is zero elsewhere
    (also for infinite values: `1 * y = y` and `0 * y = 0` for every extended real). -/
private theorem oh_mul (w : BitVec 32) (g : Fin 2048) (y : EReal) :
    oh w g * y = if w.toInt = (g.val : Int) then y else 0 := by
  unfold oh
  by_cases h : w = BitVec.ofNat 32 g.val
  · rw [if_pos h, if_pos ((eq_ofNat_iff_toInt w g).1 h), one_mul]
  · rw [if_neg h, if_neg (fun h' => h ((eq_ofNat_iff_toInt w g).2 h')), zero_mul]

/-- Half `c`, block `j`, place `k` name row `(8c + j)·4096 + k`; every row has exactly one such name:
    `c = n / 32768`, `j = (n / 4096) % 8`, `k = n % 4096`. -/
private def rowEquiv : Fin 2 × Fin 8 × Fin 4096 ≃ Fin 65536 where
  toFun p := row (pt p.1 p.2.1) p.2.2
  invFun n := (⟨n.val / 32768, by omega⟩, ⟨(n.val / 4096) % 8, by omega⟩, ⟨n.val % 4096, by omega⟩)
  left_inv := by
    rintro ⟨c, j, k⟩
    have hc := c.isLt
    have hj := j.isLt
    have hk := k.isLt
    refine Prod.ext (Fin.ext ?_) (Prod.ext (Fin.ext ?_) (Fin.ext ?_))
    · show ((c.val * 8 + j.val) * 4096 + k.val) / 32768 = c.val
      omega
    · show (((c.val * 8 + j.val) * 4096 + k.val) / 4096) % 8 = j.val
      omega
    · show ((c.val * 8 + j.val) * 4096 + k.val) % 4096 = k.val
      omega
  right_inv := by
    intro n
    have hn := n.isLt
    refine Fin.ext ?_
    show (n.val / 32768 * 8 + (n.val / 4096) % 8) * 4096 + n.val % 4096 = n.val
    omega

/-- Summing over halves, blocks and places is summing over all rows. -/
private theorem sum_rows_all (F : Fin 65536 → EReal) :
    ∑ c : Fin 2, ∑ j : Fin 8, ∑ k : Fin 4096, F (row (pt c j) k) = ∑ n : Fin 65536, F n := by
  rw [← Equiv.sum_comp rowEquiv F, Fintype.sum_prod_type]
  refine Finset.sum_congr rfl fun c _ => ?_
  rw [Fintype.sum_prod_type]
  rfl

/-- The generic fact: indicator-weighted block sums of any row function add up to its sum over the group's rows. -/
private theorem sum_blocks (s : Fin 65536 → BitVec 32) (g : Fin 2048) (f : Fin 65536 → EReal) :
    ∑ c : Fin 2, ∑ j : Fin 8, ∑ k : Fin 4096, oh (s (row (pt c j) k)) g * f (row (pt c j) k)
      = ∑ n ∈ rows s g, f n := by
  refine (sum_rows_all (fun n => oh (s n) g * f n)).trans ?_
  unfold rows
  rw [Finset.sum_filter]
  exact Finset.sum_congr rfl fun n _ => oh_mul _ _ _

/-- The blocks' shares add up to the group's coordinate sum. -/
theorem sum_blkSum (s : Fin 65536 → BitVec 32) (x : Fin 65536 → Fin 512 → EReal) (g : Fin 2048) (d : Fin 512) :
    ∑ c : Fin 2, ∑ j : Fin 8, blkSum s x (pt c j) g d = sums s x g d := by
  unfold blkSum sums
  exact sum_blocks s g (fun n => x n d)

/-- The blocks' shares add up to the group's count. -/
theorem sum_blkCnt (s : Fin 65536 → BitVec 32) (g : Fin 2048) :
    ∑ c : Fin 2, ∑ j : Fin 8, blkCnt s (pt c j) g = cnt s g := by
  unfold blkCnt cnt
  exact sum_blocks s g (fun _ => 1)

/-- The blocks' shares add up to the group's sum of squared norms. -/
theorem sum_blkSq (s : Fin 65536 → BitVec 32) (x : Fin 65536 → Fin 512 → EReal) (g : Fin 2048) :
    ∑ c : Fin 2, ∑ j : Fin 8, blkSq s x (pt c j) g = sqs s x g := by
  unfold blkSq sqs
  exact sum_blocks s g (fun n => ∑ d : Fin 512, x n d * x n d)

/-- The blocks' shares as a function of all naturals (zero past the last block). -/
private def ext (P : Fin 16 → EReal) (i : ℕ) : EReal := if hi : i < 16 then P ⟨i, hi⟩ else 0

/-- After block `n` the running total holds the shares of the blocks of `n`'s half up to `n`:
    those numbered `n - n % 8 + i` for `i ≤ n % 8`. -/
private theorem acc_eq (P : Fin 16 → EReal) : ∀ (n : ℕ) (h : n < 16),
    acc P n h = ∑ i ∈ Finset.range (n % 8 + 1), ext P (n - n % 8 + i)
  | 0, h => by
      simp [acc, ext]
  | n + 1, h => by
      have ih := acc_eq P n (Nat.lt_of_succ_lt h)
      rw [acc]
      by_cases h8 : (n + 1) % 8 = 0
      · -- a half starts: the total is this block's share alone
        rw [if_pos h8, h8]
        simp [ext, h]
      · -- inside a half: one more term of the same range
        rw [if_neg h8, ih]
        have e1 : (n + 1) % 8 = n % 8 + 1 := by omega
        have e2 : n + 1 - (n % 8 + 1) = n - n % 8 := by omega
        have e3 : n - n % 8 + (n % 8 + 1) = n + 1 := by omega
        rw [e1, e2, Finset.sum_range_succ _ (n % 8 + 1), e3]
        congr 1
        simp [ext, h]

/-- After the last block of half `c` the running total is the half's sum. -/
theorem acc_last (P : Fin 16 → EReal) (c : Fin 2) (h : c.val * 8 + 7 < 16) :
    acc P (c.val * 8 + 7) h = ∑ j : Fin 8, P (pt c j) := by
  have hc := c.isLt
  have e1 : (c.val * 8 + 7) % 8 + 1 = 8 := by omega
  have e2 : c.val * 8 + 7 - (c.val * 8 + 7) % 8 = c.val * 8 := by omega
  rw [acc_eq P _ h, e1, e2, Finset.sum_range]
  refine Finset.sum_congr rfl fun j _ => ?_
  have hj := j.isLt
  unfold ext
  rw [dif_pos (by omega)]
  rfl

/-! ## Literals -/

theorem ofBits_one_f32 : Ideal.ofBits .f32 0x3F800000#32 = (1 : EReal) := by
  -- sign 0, exponent field 127 = bias, fraction 0: (2^23 + 0) · 2^(127 - 127 - 23) = 1
  simp [Ideal.ofBits, Ideal.ieee, -EReal.coe_mul]
  norm_num

theorem ofBits_one_bf16 : Ideal.ofBits .bf16 0x3F80#16 = (1 : EReal) := by
  -- sign 0, exponent field 127 = bias, fraction 0: (2^7 + 0) · 2^(127 - 127 - 7) = 1
  simp [Ideal.ofBits, Ideal.ieee, -EReal.coe_mul]
  norm_num

theorem ofBits_zero_f32 : Ideal.ofBits .f32 0x00000000#32 = (0 : EReal) := by
  -- all fields zero: the subnormal 0 · 2^(-149)
  simp [Ideal.ofBits, Ideal.ieee]

end Cert.SegSpec

end
-- ==== Proof.KPayAux.lean ====
import proofs.«431362_j84052509982804_3_alg».proof.Proof.KPay
import proofs.«431362_j84052509982804_3_alg».proof.Proof.SegBlocks

/-!
# The auxiliary block: counts and squared norms

The auxiliary matrix has three columns per row: one, the row's squared norm, and the squared norm minus itself (zero
over real entries). The one-hot times it adds, per group, the block's row count, the block's sum of squared norms,
and zero.
-/

noncomputable section

namespace Cert.KernelIdeal.Pay

open Cert.KernelIdeal Cert.KernelIdeal.Gen Idealize.ShloMosaic Idealize.ShloMosaic.ValueIdx Cert.SegSpec

/-- A vector of length `a` cast to a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row's squared norm: the lane sum of the squares, kept as a column. -/
private def sqcol (v11 : Vec Ideal S4096x512 .f32) : FVec Ideal S4096x1 .f32 :=
  shapeCast S4096x1 (multiReduction .add [1] S4096 (mulf v11 v11) 0x00000000#32 reduces_S4096x512_S4096 (.inl rfl) rfl)
    shapeCasts_S4096_S4096x1

/-- The squared-norm column at row `k`: the sum over the 512 lanes of the squares. -/
private theorem sqcol_apply (v11 : Vec Ideal S4096x512 .f32) (k : Fin 4096) (u : Fin 1) :
    sqcol v11 (ix2 k u) = ∑ d : Fin 512, v11 (ix2 k d) * v11 (ix2 k d) := by
  unfold sqcol
  refine (shapeCast_a_a1_apply _ shapeCasts_S4096_S4096x1 k u).trans ?_
  refine (Ideal.multiReduction_add_single (mulf v11 v11) _ reduces_S4096x512_S4096 (.inl rfl) rfl (ix1 k)).trans ?_
  refine Finset.sum_congr rfl fun d _ => ?_
  have e : reduces_S4096x512_S4096.lift (ix1 k) d = ix2 k d := by
    funext ax; apply Fin.ext
    match ax with
    | ⟨0, _⟩ => rfl
    | ⟨1, _⟩ => rfl
  rw [e]
  rfl

/-- The three columns: ones, the squared norms, the squared norms minus themselves. -/
private def pieces (v11 : Vec Ideal S4096x512 .f32) : List ((s : Shape) × (s.Idx → EReal)) :=
  [⟨S4096x1, broadcast S4096x1 (Scalar.ofBits (F := Ideal) .bf16 0x3F80#16)⟩,
   ⟨S4096x1, truncf .bf16 (sqcol v11) bitsLt_bf16_f32⟩,
   ⟨S4096x1, truncf .bf16 (subf (sqcol v11) (sqcol v11)) bitsLt_bf16_f32⟩]

/-- The auxiliary matrix is the three columns side by side. -/
private theorem pay6_eq (v11 : Vec Ideal S4096x512 .f32) :
    k0_pay6 (F := Ideal) v11
      = concatenate S4096x3 1 (pieces v11) concatenates_S4096x1_S4096x1_S4096x1_S4096x3_d1 := rfl

/-- Column `c` of the auxiliary matrix is piece `c` of the three, read at its only column: each piece is one
    column wide, so `c` pieces come before it. -/
private theorem pay6_piece (v11 : Vec Ideal S4096x512 .f32) (k : Fin 4096) (c : Fin 3) (x₁ : S4096x1.Idx → EReal)
    (hx : (pieces v11)[c.val]'(c.isLt) = ⟨S4096x1, x₁⟩)
    (hpre : ((((pieces v11).take c.val).map (·.1)).map
      (fun s : Shape => if h : s.rank = S4096x3.rank then s.size ((1 : Fin S4096x3.rank).cast h.symm) else 0)).sum = c.val) :
    k0_pay6 (F := Ideal) v11 (ix2 k c) = x₁ (ix2 k (0 : Fin 1)) := by
  rw [pay6_eq]
  refine concatenate_apply_piece (1 : Fin S4096x3.rank) (pieces v11) concatenates_S4096x1_S4096x1_S4096x1_S4096x3_d1 (ix2 k c)
    c.val c.isLt S4096x1 x₁ hx rfl c.val hpre (ix2 k (0 : Fin 1)) ?_ ?_
  · intro b hb
    match b with
    | ⟨0, _⟩ => rfl
    | ⟨1, _⟩ => exact absurd rfl hb
  · show c.val + 0 = c.val
    rfl

/-- Column 0 of the auxiliary matrix: one. -/
theorem pay6_apply_0 (v11 : Vec Ideal S4096x512 .f32) (k : Fin 4096) :
    k0_pay6 (F := Ideal) v11 (ix2 k (0 : Fin 3)) = (1 : EReal) := by
  refine (pay6_piece v11 k 0 _ rfl rfl).trans ?_
  exact ofBits_one_bf16

/-- Column 1: the row's squared norm. -/
theorem pay6_apply_1 (v11 : Vec Ideal S4096x512 .f32) (k : Fin 4096) :
    k0_pay6 (F := Ideal) v11 (ix2 k (1 : Fin 3)) = ∑ d : Fin 512, v11 (ix2 k d) * v11 (ix2 k d) := by
  refine (pay6_piece v11 k 1 _ rfl rfl).trans ?_
  exact sqcol_apply v11 k 0

/-- A finite sum of real numbers, taken in the extended reals, is a real number. -/
private theorem sum_real {ι : Type} [DecidableEq ι] (s : Finset ι) (f : ι → EReal) :
    (∀ i ∈ s, ∃ r : ℝ, f i = (r : EReal)) → ∃ r : ℝ, ∑ i ∈ s, f i = (r : EReal) := by
  refine Finset.induction_on s (fun _ => ⟨0, by simp⟩) (fun a s ha ih hf => ?_)
  obtain ⟨r, hr⟩ := hf a (Finset.mem_insert_self a s)
  obtain ⟨t, ht⟩ := ih fun i hi => hf i (Finset.mem_insert_of_mem hi)
  exact ⟨r + t, by rw [Finset.sum_insert ha, hr, ht, EReal.coe_add]⟩

/-- Column 2: the squared norm minus itself, zero over real entries. -/
theorem pay6_apply_2 (v11 : Vec Ideal S4096x512 .f32) (hv : ∀ i, ∃ r : ℝ, v11 i = (r : EReal)) (k : Fin 4096) :
    k0_pay6 (F := Ideal) v11 (ix2 k (2 : Fin 3)) = (0 : EReal) := by
  refine (pay6_piece v11 k 2 _ rfl rfl).trans ?_
  show sqcol v11 (ix2 k 0) - sqcol v11 (ix2 k 0) = 0
  rw [sqcol_apply]
  -- the squared norm of a row of reals is a real, and a real minus itself is zero
  obtain ⟨r, hr⟩ := sum_real Finset.univ (fun d : Fin 512 => v11 (ix2 k d) * v11 (ix2 k d)) (fun d _ => by
    obtain ⟨t, ht⟩ := hv (ix2 k d)
    exact ⟨t * t, by rw [ht, EReal.coe_mul]⟩)
  rw [hr, ← EReal.coe_sub, sub_self, EReal.coe_zero]

/-- The product of a `[2048, 4096]` by a `[4096, 3]` matrix into a zero accumulator, read at `(g, c)`: the sum over
    the contracted coordinate of the products of the entries. -/
private theorem matmul3_apply (A : FVec Ideal S2048x4096 .bf16) (B : FVec Ideal S4096x3 .bf16) (g : Fin 2048) (c : Fin 3) :
    matmul dot_S2048x4096_S4096x3_S2048x3_1_0_0_1_n_n none A B (constant (F := Ideal) S2048x3 .f32 0x00000000#32) (ix2 g c)
      = ∑ k : Fin 4096, A (ix2 g k) * B (ix2 k c) := by
  show FloatOps.matmul dot_S2048x4096_S4096x3_S2048x3_1_0_0_1_n_n none A B (constant (F := Ideal) S2048x3 .f32 0x00000000#32) (ix2 g c) = _
  rw [Ideal.matmul_constant_zero_apply,
    ← Equiv.sum_comp (contrEquiv1 dot_S2048x4096_S4096x3_S2048x3_1_0_0_1_n_n 4096 rfl rfl).symm]
  refine Finset.sum_congr rfl fun k _ => ?_
  have hk := contrEquiv1_symm_val dot_S2048x4096_S4096x3_S2048x3_1_0_0_1_n_n 4096 rfl rfl k
  have l2 : dot_S2048x4096_S4096x3_S2048x3_1_0_0_1_n_n.lhsIdx (ix2 g c)
      ((contrEquiv1 dot_S2048x4096_S4096x3_S2048x3_1_0_0_1_n_n 4096 rfl rfl).symm k) = ix2 g k := by
    funext ax; apply Fin.ext
    match ax with
    | ⟨0, _⟩ => rfl
    | ⟨1, _⟩ => exact (DotDims.lhsIdx_val_of_single _ rfl _ _).trans hk
  have r2 : dot_S2048x4096_S4096x3_S2048x3_1_0_0_1_n_n.rhsIdx (ix2 g c)
      ((contrEquiv1 dot_S2048x4096_S4096x3_S2048x3_1_0_0_1_n_n 4096 rfl rfl).symm k) = ix2 k c := by
    funext ax; apply Fin.ext
    match ax with
    | ⟨0, _⟩ => exact (DotDims.rhsIdx_val_of_single _ rfl _ _).trans hk
    | ⟨1, _⟩ => rfl
  rw [l2, r2]

/-- The auxiliary block after the body at `(g, c)`: what it held plus the one-hot row of `g` times column `c` of the
    auxiliary matrix. -/
private theorem pay1_apply (v4 : Vec Ideal S1x4096 .i32) (v11 : Vec Ideal S4096x512 .f32) (v34 : Vec Ideal S1x2048x3 .f32)
    (g : Fin 2048) (c : Fin 3) :
    k0_pay1 (F := Ideal) (k0_pay4 v4) (k0_pay6 v11) (k0_pay7 v34) (constant (F := Ideal) S2048x3 .f32 0x00000000#32) (ix3 (0 : Fin 1) g c)
      = v34 (ix3 (0 : Fin 1) g c) + ∑ k : Fin 4096, oh (v4 (ix2 (0 : Fin 1) k)) g * k0_pay6 (F := Ideal) v11 (ix2 k c) := by
  unfold k0_pay1 k0_pay7
  refine (shapeCast_ab_1ab_apply _ shapeCasts_S2048x3_S1x2048x3 (0 : Fin 1) g c).trans ?_
  rw [addf_apply, matmul3_apply, shapeCast_1ab_ab_apply v34 shapeCasts_S1x2048x3_S2048x3 g c]
  congr 1
  exact Finset.sum_congr rfl fun k _ => by rw [pay4_apply]

/-- The auxiliary block after the body, column 0: what it held plus the block's row count of group `g`. -/
theorem pay1_apply_0 (v4 : Vec Ideal S1x4096 .i32) (v11 : Vec Ideal S4096x512 .f32) (v34 : Vec Ideal S1x2048x3 .f32) (g : Fin 2048) :
    k0_pay1 (F := Ideal) (k0_pay4 v4) (k0_pay6 v11) (k0_pay7 v34) (constant (F := Ideal) S2048x3 .f32 0x00000000#32) (ix3 (0 : Fin 1) g (0 : Fin 3))
      = v34 (ix3 (0 : Fin 1) g (0 : Fin 3)) + ∑ k : Fin 4096, oh (v4 (ix2 (0 : Fin 1) k)) g * 1 := by
  rw [pay1_apply]
  congr 1
  exact Finset.sum_congr rfl fun k _ => by rw [pay6_apply_0]

/-- Column 1: what it held plus the squared norms of the block's rows of group `g`. -/
theorem pay1_apply_1 (v4 : Vec Ideal S1x4096 .i32) (v11 : Vec Ideal S4096x512 .f32) (v34 : Vec Ideal S1x2048x3 .f32) (g : Fin 2048) :
    k0_pay1 (F := Ideal) (k0_pay4 v4) (k0_pay6 v11) (k0_pay7 v34) (constant (F := Ideal) S2048x3 .f32 0x00000000#32) (ix3 (0 : Fin 1) g (1 : Fin 3))
      = v34 (ix3 (0 : Fin 1) g (1 : Fin 3)) + ∑ k : Fin 4096, oh (v4 (ix2 (0 : Fin 1) k)) g * ∑ d : Fin 512, v11 (ix2 k d) * v11 (ix2 k d) := by
  rw [pay1_apply]
  congr 1
  exact Finset.sum_congr rfl fun k _ => by rw [pay6_apply_1]

/-- Column 2: unchanged, over real entries. -/
theorem pay1_apply_2 (v4 : Vec Ideal S1x4096 .i32) (v11 : Vec Ideal S4096x512 .f32) (v34 : Vec Ideal S1x2048x3 .f32)
    (hv : ∀ i, ∃ r : ℝ, v11 i = (r : EReal)) (g : Fin 2048) :
    k0_pay1 (F := Ideal) (k0_pay4 v4) (k0_pay6 v11) (k0_pay7 v34) (constant (F := Ideal) S2048x3 .f32 0x00000000#32) (ix3 (0 : Fin 1) g (2 : Fin 3))
      = v34 (ix3 (0 : Fin 1) g (2 : Fin 3)) := by
  -- every term of the sum is an indicator times zero
  rw [pay1_apply, Finset.sum_eq_zero (fun k _ => by rw [pay6_apply_2 v11 hv, mul_zero]), add_zero]

end Cert.KernelIdeal.Pay

end
-- ==== Proof.KArrays.lean ====
import proofs.«431362_j84052509982804_3_alg».proof.KernelIdeal
import proofs.«431362_j84052509982804_3_alg».proof.Proof.SegSpec

/-!
# What the kernel's two output arrays end holding

Half `h` (one per core, 8 blocks each) writes one slab of each output array: the sums slab holds, at `(g, d)`, the
half's blocks' shares of group `g`'s coordinate sum; the auxiliary slab holds the half's row count of the group
(column 0), its sum of squared norms (column 1) and zero (column 2).
-/

noncomputable section

open Idealize.ShloMosaic Idealize.ShloMosaic.TcCoe Idealize.SL.Sem Idealize.ShloMosaic.ValueIdx

namespace Cert.KernelIdeal.Arrays

open Cert.KernelIdeal Cert.SegSpec

variable (m : (ℓ : Loc nD τ sig) → Buf (Elt Ideal) ℓ)

/-- The segment words of device `c`'s rows. -/
abbrev words (c : Dev nD) : Fin 65536 → BitVec 32 :=
  segW (m ((c : Thread nD τ).loc main_arg1)) (m ((c : Thread nD τ).loc main_arg2))
/-- The features of device `c`'s rows. -/
abbrev feats (c : Dev nD) : Fin 65536 → Fin 512 → EReal := feat (m ((c : Thread nD τ).loc main_arg0))

/-- Half `h`'s share of group `g`'s coordinate sum. -/
def halfSums (c : Dev nD) (h : Fin 2) (g : Fin 2048) (d : Fin 512) : EReal :=
  ∑ j : Fin 8, blkSum (words m c) (feats m c) (pt h j) g d

/-- Half `h`'s auxiliary triple for group `g`: row count, sum of squared norms, zero. -/
def halfAux (c : Dev nD) (h : Fin 2) (g : Fin 2048) (e : Fin 3) : EReal :=
  (![∑ j : Fin 8, blkCnt (words m c) (pt h j) g, ∑ j : Fin 8, blkSq (words m c) (feats m c) (pt h j) g, 0] : Fin 3 → EReal) e

/-- The sums array after the run. -/
def sumsArr (c : Dev nD) : Buf (Elt Ideal) ((c : Thread nD τ).loc main_v4_0) :=
  fun i => halfSums m c ⟨(i 0).val, (i 0).isLt⟩ ⟨(i 1).val, (i 1).isLt⟩ ⟨(i 2).val, (i 2).isLt⟩

/-- The auxiliary array after the run. -/
def auxArr (c : Dev nD) : Buf (Elt Ideal) ((c : Thread nD τ).loc main_v4_1) :=
  fun i => halfAux m c ⟨(i 0).val, (i 0).isLt⟩ ⟨(i 1).val, (i 1).isLt⟩ ⟨(i 2).val, (i 2).isLt⟩

theorem sumsArr_apply (c : Dev nD) (h : Fin 2) (g : Fin 2048) (d : Fin 512) :
    sumsArr m c (ix3 h g d) = halfSums m c h g d := rfl

theorem auxArr_apply (c : Dev nD) (h : Fin 2) (g : Fin 2048) (e : Fin 3) :
    auxArr m c (ix3 h g e) = halfAux m c h g e := rfl

end Cert.KernelIdeal.Arrays

end
-- ==== Proof.KAccum.lean ====
import proofs.«431362_j84052509982804_3_alg».proof.Proof.KCase
import proofs.«431362_j84052509982804_3_alg».proof.Proof.KBlocks
import proofs.«431362_j84052509982804_3_alg».proof.Proof.KPayAux
import proofs.«431362_j84052509982804_3_alg».proof.Proof.KArrays

/-!
# What the two output blocks hold after each grid point

After point `n` the sums block holds, at `(g, d)`, the running total of the blocks' shares of group `g`'s
coordinate sum since the last first-block-of-a-half; the auxiliary block holds the running totals of the row counts
(column 0) and of the squared norms (column 1), and zero in column 2. By induction on the point: a first block adds
its share to zero, a later block adds its share to what the block before left.
-/

noncomputable section

open Idealize.ShloMosaic Idealize.ShloMosaic.TcCoe Idealize.SL.Sem Idealize.ShloMosaic.ValueIdx

namespace Cert.KernelIdeal.Accum

open Cert.KernelIdeal Cert.KernelIdeal.Gen Cert.SegSpec Cert.KernelIdeal.Blocks Cert.KernelIdeal.Case Cert.KernelIdeal.Pay Cert.KernelIdeal.Arrays

section AnyF

variable {F : FTy → Type} [FloatOps F]
variable (m : (ℓ : Loc nD τ sig) → Buf (Elt F) ℓ)

/-- At a first block the sums block ends at the body's arithmetic over zeros. -/
theorem sums_first (c : Dev nD) (t : Fin cfg0.N) (h0 : t.val % 8 = 0) :
    (outsAt0 m c t.val t.isLt).1 = k0_pay5 (sblk m c t) (xblk m c t) k0_pay2 := by
  rw [outsAt0_A m c t h0]
  dsimp only
  exact outA2 c (grid0.coords t) (ms0_0 t) (hs0_0 t) (ms0_1 t) (hs0_1 t) (ms0_2 t) (hs0_2 t) (ms0_3 t) (hs0_3 t) ((hcond0_0 t).mpr h0) (iblk m c 0 t) (iblk m c 1 t)

/-- At a first block the auxiliary block ends at the body's arithmetic over zeros. -/
theorem aux_first (c : Dev nD) (t : Fin cfg0.N) (h0 : t.val % 8 = 0) :
    (outsAt0 m c t.val t.isLt).2 = k0_pay1 (k0_pay4 (sblk m c t)) (k0_pay6 (xblk m c t)) (k0_pay7 k0_pay3) zero3 := by
  rw [outsAt0_A m c t h0]
  dsimp only
  exact outA3 c (grid0.coords t) (ms0_0 t) (hs0_0 t) (ms0_1 t) (hs0_1 t) (ms0_2 t) (hs0_2 t) (ms0_3 t) (hs0_3 t) ((hcond0_0 t).mpr h0) (iblk m c 0 t) (iblk m c 1 t)

/-- At a later block the sums block ends at the body's arithmetic over what the block before left. -/
theorem sums_later (c : Dev nD) (t : Fin cfg0.N) (h0 : ¬t.val % 8 = 0) :
    (outsAt0 m c t.val t.isLt).1
      = k0_pay5 (sblk m c t) (xblk m c t) (outsAt0 m c (t.val - 1) (Nat.lt_of_le_of_lt (Nat.sub_le _ _) t.isLt)).1 := by
  rw [outsAt0_B m c t h0]
  dsimp only
  exact outB2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2

/-- At a later block the auxiliary block ends at the body's arithmetic over what the block before left. -/
theorem aux_later (c : Dev nD) (t : Fin cfg0.N) (h0 : ¬t.val % 8 = 0) :
    (outsAt0 m c t.val t.isLt).2
      = k0_pay1 (k0_pay4 (sblk m c t)) (k0_pay6 (xblk m c t)) (k0_pay7 (outsAt0 m c (t.val - 1) (Nat.lt_of_le_of_lt (Nat.sub_le _ _) t.isLt)).2) zero3 := by
  rw [outsAt0_B m c t h0]
  dsimp only
  exact outB3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2

end AnyF

/-! ## At the extended reals -/

variable (m : (ℓ : Loc nD τ sig) → Buf (Elt Ideal) ℓ)

variable (hfin : ∀ (c : Dev nD) i, ∃ r : ℝ, m ((c : Thread nD τ).loc main_arg0) i = (r : EReal))

include hfin in
/-- Every entry of a feature block is a real number. -/
theorem xblk_real (c : Dev nD) (t : Fin cfg0.N) : ∀ i, ∃ r : ℝ, xblk m c t i = (r : EReal) := by
  intro i
  obtain ⟨k, d, rfl⟩ : ∃ (k : Fin 4096) (d : Fin 512), i = ix2 k d := ⟨i 0, i 1, eq_ix2 i⟩
  rw [xblk_apply]
  exact hfin c _

include hfin in
/-- One run of the body adds block `t`'s share of the coordinate sum to what the sums block held. -/
theorem sums_step (c : Dev nD) (t : Fin cfg0.N) (prev : Vec Ideal S1x2048x512 .f32) (g : Fin 2048) (d : Fin 512) :
    k0_pay5 (F := Ideal) (sblk m c t) (xblk m c t) prev (ix3 (0 : Fin 1) g d)
      = prev (ix3 (0 : Fin 1) g d) + blkSum (words m c) (feats m c) (pt16 t) g d := by
  refine (pay5_apply (sblk m c t) (xblk m c t) prev (xblk_real m hfin c t) g d).trans ?_
  refine congrArg (prev (ix3 (0 : Fin 1) g d) + ·) (Finset.sum_congr rfl fun k _ => ?_)
  rw [sblk_apply, xblk_apply]
  rfl

/-- One run of the body adds block `t`'s row count of group `g` to column 0 of the auxiliary block. -/
theorem cnt_step (c : Dev nD) (t : Fin cfg0.N) (prev : Vec Ideal S1x2048x3 .f32) (g : Fin 2048) :
    k0_pay1 (F := Ideal) (k0_pay4 (sblk m c t)) (k0_pay6 (xblk m c t)) (k0_pay7 prev) zero3 (ix3 (0 : Fin 1) g (0 : Fin 3))
      = prev (ix3 (0 : Fin 1) g (0 : Fin 3)) + blkCnt (words m c) (pt16 t) g := by
  refine (pay1_apply_0 (sblk m c t) (xblk m c t) prev g).trans ?_
  refine congrArg (prev (ix3 (0 : Fin 1) g (0 : Fin 3)) + ·) (Finset.sum_congr rfl fun k _ => ?_)
  rw [sblk_apply]

/-- One run of the body adds block `t`'s squared norms of group `g` to column 1 of the auxiliary block. -/
theorem sq_step (c : Dev nD) (t : Fin cfg0.N) (prev : Vec Ideal S1x2048x3 .f32) (g : Fin 2048) :
    k0_pay1 (F := Ideal) (k0_pay4 (sblk m c t)) (k0_pay6 (xblk m c t)) (k0_pay7 prev) zero3 (ix3 (0 : Fin 1) g (1 : Fin 3))
      = prev (ix3 (0 : Fin 1) g (1 : Fin 3)) + blkSq (words m c) (feats m c) (pt16 t) g := by
  refine (pay1_apply_1 (sblk m c t) (xblk m c t) prev g).trans ?_
  refine congrArg (prev (ix3 (0 : Fin 1) g (1 : Fin 3)) + ·) (Finset.sum_congr rfl fun k _ => ?_)
  rw [sblk_apply]
  refine congrArg (oh _ g * ·) (Finset.sum_congr rfl fun d _ => ?_)
  rw [xblk_apply]
  rfl

include hfin in
/-- One run of the body leaves column 2 of the auxiliary block as it was. -/
theorem lo_step (c : Dev nD) (t : Fin cfg0.N) (prev : Vec Ideal S1x2048x3 .f32) (g : Fin 2048) :
    k0_pay1 (F := Ideal) (k0_pay4 (sblk m c t)) (k0_pay6 (xblk m c t)) (k0_pay7 prev) zero3 (ix3 (0 : Fin 1) g (2 : Fin 3))
      = prev (ix3 (0 : Fin 1) g (2 : Fin 3)) :=
  pay1_apply_2 (sblk m c t) (xblk m c t) prev (xblk_real m hfin c t) g

include hfin in
/-- The sums block after point `n`: the running total of the blocks' shares. -/
theorem sums_at (c : Dev nD) : ∀ (n : ℕ) (h : n < cfg0.N) (g : Fin 2048) (d : Fin 512),
    (outsAt0 m c n h).1 (ix3 (0 : Fin 1) g d)
      = acc (fun t => blkSum (words m c) (feats m c) t g d) n (lt_of_lt_of_eq h N_0)
  | 0, h, g, d => by
    refine (congrFun (sums_first m c ⟨0, h⟩ rfl) (ix3 (0 : Fin 1) g d)).trans ?_
    refine (sums_step m hfin c ⟨0, h⟩ (k0_pay2 (F := Ideal)) g d).trans ?_
    rw [pay2_apply, zero_add]
    rfl
  | n + 1, h, g, d => by
    by_cases h0 : (n + 1) % 8 = 0
    · refine (congrFun (sums_first m c ⟨n + 1, h⟩ h0) (ix3 (0 : Fin 1) g d)).trans ?_
      refine (sums_step m hfin c ⟨n + 1, h⟩ (k0_pay2 (F := Ideal)) g d).trans ?_
      rw [pay2_apply, zero_add, acc, if_pos h0]
      rfl
    · refine (congrFun (sums_later m c ⟨n + 1, h⟩ h0) (ix3 (0 : Fin 1) g d)).trans ?_
      refine (sums_step m hfin c ⟨n + 1, h⟩ _ g d).trans ?_
      rw [acc, if_neg h0]
      exact congrArg₂ (· + ·) (sums_at c n (Nat.lt_of_succ_lt h) g d) rfl

include hfin in
/-- The auxiliary block after point `n`: the running totals of the counts and of the squared norms, and zero. -/
theorem aux_at (c : Dev nD) : ∀ (n : ℕ) (h : n < cfg0.N) (g : Fin 2048),
    (outsAt0 m c n h).2 (ix3 (0 : Fin 1) g (0 : Fin 3)) = acc (fun t => blkCnt (words m c) t g) n (lt_of_lt_of_eq h N_0)
    ∧ (outsAt0 m c n h).2 (ix3 (0 : Fin 1) g (1 : Fin 3)) = acc (fun t => blkSq (words m c) (feats m c) t g) n (lt_of_lt_of_eq h N_0)
    ∧ (outsAt0 m c n h).2 (ix3 (0 : Fin 1) g (2 : Fin 3)) = 0
  | 0, h, g => by
    have e := aux_first m c ⟨0, h⟩ rfl
    refine ⟨?_, ?_, ?_⟩
    · refine (congrFun e _).trans ((cnt_step m c ⟨0, h⟩ (k0_pay3 (F := Ideal)) g).trans ?_)
      rw [pay3_apply, zero_add]; rfl
    · refine (congrFun e _).trans ((sq_step m c ⟨0, h⟩ (k0_pay3 (F := Ideal)) g).trans ?_)
      rw [pay3_apply, zero_add]; rfl
    · exact (congrFun e _).trans ((lo_step m hfin c ⟨0, h⟩ (k0_pay3 (F := Ideal)) g).trans (pay3_apply _))
  | n + 1, h, g => by
    by_cases h0 : (n + 1) % 8 = 0
    · have e := aux_first m c ⟨n + 1, h⟩ h0
      refine ⟨?_, ?_, ?_⟩
      · refine (congrFun e _).trans ((cnt_step m c ⟨n + 1, h⟩ (k0_pay3 (F := Ideal)) g).trans ?_)
        rw [pay3_apply, zero_add, acc, if_pos h0]; rfl
      · refine (congrFun e _).trans ((sq_step m c ⟨n + 1, h⟩ (k0_pay3 (F := Ideal)) g).trans ?_)
        rw [pay3_apply, zero_add, acc, if_pos h0]; rfl
      · exact (congrFun e _).trans ((lo_step m hfin c ⟨n + 1, h⟩ (k0_pay3 (F := Ideal)) g).trans (pay3_apply _))
    · have e := aux_later m c ⟨n + 1, h⟩ h0
      obtain ⟨i0, i1, i2⟩ := aux_at c n (Nat.lt_of_succ_lt h) g
      refine ⟨?_, ?_, ?_⟩
      · refine (congrFun e _).trans ((cnt_step m c ⟨n + 1, h⟩ _ g).trans ?_)
        rw [acc, if_neg h0]
        exact congrArg₂ (· + ·) i0 rfl
      · refine (congrFun e _).trans ((sq_step m c ⟨n + 1, h⟩ _ g).trans ?_)
        rw [acc, if_neg h0]
        exact congrArg₂ (· + ·) i1 rfl
      · exact (congrFun e _).trans ((lo_step m hfin c ⟨n + 1, h⟩ _ g).trans i2)

end Cert.KernelIdeal.Accum

end
-- ==== Proof.KTail.lean ====
import proofs.«431362_j84052509982804_3_alg».proof.Proof.Gen.KernelIdeal.Frame
import proofs.«431362_j84052509982804_3_alg».proof.Proof.SegSpec
import proofs.«431362_j84052509982804_3_alg».proof.Proof.SegBlocks
import Idealize.ShloMosaic.Lib.Pipeline.Value
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Tactic

/-!
# The kernel's program after the region

The two halves' slabs are added; column 0 of the auxiliary sum is the per-group count, columns 1 and 2 together the
per-group sum of squared norms; the mean is the coordinate sum over `max count 1`; the per-group mean distance is
`max (squared norms - count · ‖mean‖², 0) / max count 1`; then the last stretch common to both programs.
-/

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.SegSpec

variable {F : FTy → Type} [FloatOps F]

/-- The two halves' auxiliary slabs added. -/
def auxSum (A1 : FVec F S2x2048x3 .f32) : FVec F S2048x3 .f32 :=
  Host.reduceAdd A1 (constant (F := F) S_ .f32 0x00000000#32) reducesTo_S2x2048x3_S2048x3_d0 h_S_

/-- The kernel's per-group count: column 0 of the added auxiliary slabs. -/
def countK (A1 : FVec F S2x2048x3 .f32) : FVec F S2048 .f32 :=
  shapeCast S2048 (extractStridedSlice S2048x1 ![0, 0] (auxSum A1) slices_S2048x3_S2048x1_0_0) shapeCasts_S2048x1_S2048

/-- The kernel's divisor: the count, or one. -/
def safeK (A1 : FVec F S2x2048x3 .f32) : FVec F S2048 .f32 :=
  maximumf (countK A1) (broadcastInDim S2048 ![] bcast_S_S2048 (constant (F := F) S_ .f32 0x3F800000#32))

/-- The kernel's group means. -/
def meanK (A0 : FVec F S2x2048x512 .f32) (A1 : FVec F S2x2048x3 .f32) : FVec F S2048x512 .f32 :=
  Host.divf (Host.reduceAdd A0 (constant (F := F) S_ .f32 0x00000000#32) reducesTo_S2x2048x512_S2048x512_d0 h_S_)
    (broadcastInDim S2048x512 ![0, 1] bcast_S2048x1_S2048x512_0_1 (broadcastInDim S2048x1 ![0] bcast_S2048_S2048x1_0 (safeK A1)))

/-- The kernel's per-group mean distance. -/
def distKv (A0 : FVec F S2x2048x512 .f32) (A1 : FVec F S2x2048x3 .f32) : FVec F S2048 .f32 :=
  Host.divf
    (maximumf
      (subf
        (addf (shapeCast S2048 (extractStridedSlice S2048x1 ![0, 1] (auxSum A1) slices_S2048x3_S2048x1_0_1) shapeCasts_S2048x1_S2048)
          (shapeCast S2048 (extractStridedSlice S2048x1 ![0, 2] (auxSum A1) slices_S2048x3_S2048x1_0_2) shapeCasts_S2048x1_S2048))
        (mulf (countK A1)
          (Host.reduceAdd (mulf (meanK A0 A1) (meanK A0 A1)) (constant (F := F) S_ .f32 0x00000000#32) reducesTo_S2048x512_S2048_d1 h_S_)))
      (broadcastInDim S2048 ![] bcast_S_S2048 (constant (F := F) S_ .f32 0x00000000#32)))
    (safeK A1)

/-- The program's result after the region, from the two output arrays: the common last stretch of the kernel's counts and
    mean distances. -/
theorem tail_value (m : (ℓ : Loc nD τ sig) → Buf (Elt F) ℓ)
    (D : (p : Fin 1) → (c : Dev nD) → Dat τ (Elt F) Unit ℕ (UR sig nD τ) ℕ (cfgs p) c) (c : Dev nD)
    (A0 : Buf (Elt F) ((c : Thread nD τ).loc main_v4_0)) (A1 : Buf (Elt F) ((c : Thread nD τ).loc main_v4_1))
    (h0 : (D 0 c).arrAt 2 cfg0.N = A0) (h1 : (D 0 c).arrAt 3 cfg0.N = A1) :
    Pipeline.afterTail₀ cfgs D 0 (V0 m) [hostOps1] c main_v43
      = tail (F := F) bcast_S_S2048 shapeCasts_S2048_S4x512 reducesTo_S4x512_S4_d1 bcast_S_S4 reducesTo_S4_S_d0 h_S_
          (countK A1) (distKv A0 A1) := by
  unfold Pipeline.afterTail₀
  show StableHlo.after hostOps1 _ (Proc.devRef .tc main_v43) = _
  after_results_simp
  -- what the region leaves at its two output references: the arrays `A0` and `A1`
  have e0 : Pipeline.withArrays (cfgs 0).spec c (V0 m c) (fun w => (D 0 c).arrAt w (cfgs 0).N) (Proc.devRef .tc main_v4_0) = A0 :=
    (Pipeline.withArrays_arr spec0 launch0.win.arr_inj c (V0 m c) (fun w => (D 0 c).arrAt w cfg0.N) 2).trans h0
  have e1 : Pipeline.withArrays (cfgs 0).spec c (V0 m c) (fun w => (D 0 c).arrAt w (cfgs 0).N) (Proc.devRef .tc main_v4_1) = A1 :=
    (Pipeline.withArrays_arr spec0 launch0.win.arr_inj c (V0 m c) (fun w => (D 0 c).arrAt w cfg0.N) 3).trans h1
  rw [e0, e1]
  rfl

/-! ## The stages read at an index, over the extended reals -/

/-- The added auxiliary slabs at `(g, e)`: the two halves' entries added. -/
private theorem auxSum_apply (A1 : FVec Ideal S2x2048x3 .f32) (g : Fin 2048) (e : Fin 3) :
    auxSum (F := Ideal) A1 (ix2 g e) = ∑ h : Fin 2, A1 (ix3 h g e) := by
  unfold auxSum
  simp only [Host.reduceAdd, Ideal.hostReduceAdd_def]
  rw [Ideal.hostReduceAdd_single reducesTo_S2x2048x3_S2048x3_d0 (by decide)]
  rw [constant_apply, ofBits_zero_f32, zero_add]
  refine Finset.sum_congr rfl fun k _ => ?_
  exact congrArg A1 (funext fun a => Fin.ext (by match a with | ⟨0, _⟩ => rfl | ⟨1, _⟩ => rfl | ⟨2, _⟩ => rfl))

/-- The added coordinate slabs at `(g, d)`: the two halves' entries added. -/
private theorem slabSum_apply (A0 : FVec Ideal S2x2048x512 .f32) (g : Fin 2048) (d : Fin 512) :
    Host.reduceAdd A0 (constant (F := Ideal) S_ .f32 0x00000000#32) reducesTo_S2x2048x512_S2048x512_d0 h_S_ (ix2 g d)
      = ∑ h : Fin 2, A0 (ix3 h g d) := by
  simp only [Host.reduceAdd, Ideal.hostReduceAdd_def]
  rw [Ideal.hostReduceAdd_single reducesTo_S2x2048x512_S2048x512_d0 (by decide)]
  rw [constant_apply, ofBits_zero_f32, zero_add]
  refine Finset.sum_congr rfl fun k _ => ?_
  exact congrArg A0 (funext fun a => Fin.ext (by match a with | ⟨0, _⟩ => rfl | ⟨1, _⟩ => rfl | ⟨2, _⟩ => rfl))

/-- A row sum at `g`: the sum of row `g`'s entries. -/
private theorem rowSum_apply (X : FVec Ideal S2048x512 .f32) (g : Fin 2048) :
    Host.reduceAdd X (constant (F := Ideal) S_ .f32 0x00000000#32) reducesTo_S2048x512_S2048_d1 h_S_ (ix1 g)
      = ∑ d : Fin 512, X (ix2 g d) := by
  simp only [Host.reduceAdd, Ideal.hostReduceAdd_def]
  rw [Ideal.hostReduceAdd_single reducesTo_S2048x512_S2048_d1 (by decide)]
  rw [constant_apply, ofBits_zero_f32, zero_add]
  refine Finset.sum_congr rfl fun k _ => ?_
  exact congrArg X (funext fun a => Fin.ext (by match a with | ⟨0, _⟩ => rfl | ⟨1, _⟩ => rfl))

/-- Column `e` of a `[2048, 3]` array, cut out and flattened, read at `g`: the array at `(g, e)`. -/
private theorem col_apply {α : Type} (X : S2048x3.Idx → α) (off : Fin S2048x3.rank → Nat) (h : S2048x3.Slices off S2048x1)
    (e : Fin 3) (h0 : off 0 = 0) (h1 : off 1 = e.val) (g : Fin 2048) :
    shapeCast S2048 (extractStridedSlice S2048x1 off X h) shapeCasts_S2048x1_S2048 (ix1 g) = X (ix2 g e) := by
  refine (shapeCast_apply _ shapeCasts_S2048x1_S2048 (ix1 g) (ix2 g (0 : Fin 1)) ?_).trans ?_
  · rw [Shape.rowMajor_val_two, Shape.rowMajor_val_one]
    show g.val * 1 + 0 = g.val
    omega
  · refine extractStridedSlice_apply off X h (ix2 g (0 : Fin 1)) (ix2 g e) fun a => ?_
    match a with
    | ⟨0, _⟩ => show g.val = off 0 + g.val; omega
    | ⟨1, _⟩ => show e.val = off 1 + 0; omega

/-- The kernel's count of group `g`: the two halves' column 0 entries added. -/
theorem countK_apply (A1 : FVec Ideal S2x2048x3 .f32) (g : Fin 2048) :
    countK (F := Ideal) A1 (ix1 g) = ∑ h : Fin 2, A1 (ix3 h g (0 : Fin 3)) := by
  unfold countK
  exact (col_apply (auxSum A1) _ slices_S2048x3_S2048x1_0_0 0 rfl rfl g).trans (auxSum_apply A1 g 0)

/-- The zero vector at `g`. -/
private theorem zeros_apply (g : Fin 2048) :
    broadcastInDim S2048 ![] bcast_S_S2048 (constant (F := Ideal) S_ .f32 0x00000000#32) (ix1 g) = (0 : EReal) := by
  refine (broadcastInDim_apply _ bcast_S_S2048 _ (ix1 g) ix0 (fun a => a.elim0)).trans ?_
  rw [constant_apply, ofBits_zero_f32]

/-- The kernel's divisor at `g`: the count, or one. -/
private theorem safeK_apply (A1 : FVec Ideal S2x2048x3 .f32) (g : Fin 2048) :
    safeK (F := Ideal) A1 (ix1 g) = max (∑ h : Fin 2, A1 (ix3 h g (0 : Fin 3))) 1 := by
  unfold safeK
  rw [maximumf_apply, countK_apply]
  refine congrArg (max _) ?_
  refine (broadcastInDim_apply _ bcast_S_S2048 _ (ix1 g) ix0 (fun a => a.elim0)).trans ?_
  rw [constant_apply, ofBits_one_f32]

/-- A per-group vector spread along the features, read at `(g, d)`: the vector at `g`. -/
private theorem spread_apply {α : Type} (y : S2048.Idx → α) (g : Fin 2048) (d : Fin 512) :
    broadcastInDim S2048x512 ![0, 1] bcast_S2048x1_S2048x512_0_1 (broadcastInDim S2048x1 ![0] bcast_S2048_S2048x1_0 y) (ix2 g d)
      = y (ix1 g) := by
  refine (broadcastInDim_apply _ bcast_S2048x1_S2048x512_0_1 _ (ix2 g d) (ix2 g (0 : Fin 1)) fun a => ?_).trans
    (broadcastInDim_apply _ bcast_S2048_S2048x1_0 y (ix2 g (0 : Fin 1)) (ix1 g) fun a => ?_)
  · match a with
    | ⟨0, _⟩ => show g.val = if (2048 : Nat) = 1 then 0 else g.val; rw [if_neg (by decide)]
    | ⟨1, _⟩ => show 0 = if (1 : Nat) = 1 then 0 else d.val; rw [if_pos rfl]
  · match a with
    | ⟨0, _⟩ => show g.val = if (2048 : Nat) = 1 then 0 else g.val; rw [if_neg (by decide)]

/-- The host's quotient at an index, over the extended reals. -/
private theorem hostDivf_apply {s : Shape} {φ : FTy} (a b : FVec Ideal s φ) (i : s.Idx) :
    Host.divf a b i = Ideal.div (a i) (b i) := rfl

/-- The kernel's mean of group `g`, coordinate `d`. -/
private theorem meanK_apply (A0 : FVec Ideal S2x2048x512 .f32) (A1 : FVec Ideal S2x2048x3 .f32) (g : Fin 2048) (d : Fin 512) :
    meanK (F := Ideal) A0 A1 (ix2 g d)
      = Ideal.div (∑ h : Fin 2, A0 (ix3 h g d)) (max (∑ h : Fin 2, A1 (ix3 h g (0 : Fin 3))) 1) := by
  unfold meanK
  rw [hostDivf_apply, slabSum_apply, spread_apply, safeK_apply]

/-- The kernel's mean distance of group `g`, from the two arrays' entries. -/
theorem distKv_apply (A0 : FVec Ideal S2x2048x512 .f32) (A1 : FVec Ideal S2x2048x3 .f32) (g : Fin 2048) :
    distKv (F := Ideal) A0 A1 (ix1 g)
      = Ideal.div
          (max (((∑ h : Fin 2, A1 (ix3 h g (1 : Fin 3))) + ∑ h : Fin 2, A1 (ix3 h g (2 : Fin 3)))
              - (∑ h : Fin 2, A1 (ix3 h g (0 : Fin 3)))
                * ∑ d : Fin 512,
                    Ideal.div (∑ h : Fin 2, A0 (ix3 h g d)) (max (∑ h : Fin 2, A1 (ix3 h g (0 : Fin 3))) 1)
                      * Ideal.div (∑ h : Fin 2, A0 (ix3 h g d)) (max (∑ h : Fin 2, A1 (ix3 h g (0 : Fin 3))) 1)) 0)
          (max (∑ h : Fin 2, A1 (ix3 h g (0 : Fin 3))) 1) := by
  unfold distKv
  rw [hostDivf_apply, maximumf_apply, subf_apply, addf_apply, mulf_apply, safeK_apply, countK_apply,
    col_apply (auxSum A1) _ slices_S2048x3_S2048x1_0_1 1 rfl rfl g, col_apply (auxSum A1) _ slices_S2048x3_S2048x1_0_2 2 rfl rfl g,
    auxSum_apply, auxSum_apply, rowSum_apply, zeros_apply]
  simp only [mulf_apply, meanK_apply]

end Cert.KernelIdeal.Tail

end
-- ==== Proof.KFinal.lean ====
import proofs.«431362_j84052509982804_3_alg».proof.Proof.KAccum
import proofs.«431362_j84052509982804_3_alg».proof.Proof.KTail
import proofs.«431362_j84052509982804_3_alg».proof.Proof.SegBlocks

/-!
# The kernel's output arrays after the run, and its run read as values

The last block of half `h` (point `8h + 7`) writes the half's slab back: slab `h` of each output array. What it
writes is the running total after that point, which is the sum over the half's 8 blocks. The two slabs cover each
array, so the arrays end at the closed forms; the program's result is then the host operations after the region
applied to them.
-/

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.SegSpec Cert.KernelIdeal.Blocks Cert.KernelIdeal.Arrays Cert.KernelIdeal.Accum Cert.KernelIdeal.Tail

variable (m : (ℓ : Loc nD τ sig) → Buf (Elt Ideal) ℓ) (ρ : Dev nD → PrngReg)
variable (hfin : ∀ (c : Dev nD) i, ∃ r : ℝ, m ((c : Thread nD τ).loc main_arg0) i = (r : EReal))

/-- Where the two output windows' blocks sit: slab `t / 8`, whole in the other two axes; and the blocks are not cut. -/
theorem index_out : ∀ t : Fin cfg0.N,
    (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_2.xsize (grid0.coords t) 0 = 1 ∧ win0_2.xsize (grid0.coords t) 1 = 2048 ∧ win0_2.xsize (grid0.coords t) 2 = 512)
    ∧ (win0_3.xsize (grid0.coords t) 0 = 1 ∧ win0_3.xsize (grid0.coords t) 1 = 2048 ∧ win0_3.xsize (grid0.coords t) 2 = 3) :=
  (by decide +kernel : ∀ t : Fin grid0.N,
    (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_2.xsize (grid0.coords t) 0 = 1 ∧ win0_2.xsize (grid0.coords t) 1 = 2048 ∧ win0_2.xsize (grid0.coords t) 2 = 512)
    ∧ (win0_3.xsize (grid0.coords t) 0 = 1 ∧ win0_3.xsize (grid0.coords t) 1 = 2048 ∧ win0_3.xsize (grid0.coords t) 2 = 3))

include hfin in
/-- After the last block of half `k` the sums block holds the half's sums. -/
theorem sums_last (c : Dev nD) (k : Fin 2) (h : k.val * 8 + 7 < cfg0.N) (g : Fin 2048) (d : Fin 512) :
    (outsAt0 m c (k.val * 8 + 7) h).1 (ix3 (0 : Fin 1) g d) = halfSums m c k g d :=
  (sums_at m hfin c (k.val * 8 + 7) h g d).trans (acc_last (fun t => blkSum (words m c) (feats m c) t g d) k _)

include hfin in
/-- After the last block of half `k` the auxiliary block holds the half's triple. -/
theorem aux_last (c : Dev nD) (k : Fin 2) (h : k.val * 8 + 7 < cfg0.N) (g : Fin 2048) (e : Fin 3) :
    (outsAt0 m c (k.val * 8 + 7) h).2 (ix3 (0 : Fin 1) g e) = halfAux m c k g e := by
  obtain ⟨i0, i1, i2⟩ := aux_at m hfin c (k.val * 8 + 7) h g
  match e with
  | ⟨0, _⟩ => exact i0.trans (acc_last (fun t => blkCnt (words m c) t g) k _)
  | ⟨1, _⟩ => exact i1.trans (acc_last (fun t => blkSq (words m c) (feats m c) t g) k _)
  | ⟨2, _⟩ => exact i2

include hfin in
/-- What a flushing point writes back to the sums array is that point's block of the closed form. -/
theorem flushed_sums (c : Dev nD) (t : Fin cfg0.N) (hf : (cfg0.win 2).flush t = true) :
    (dats m 0 c).flushed 2 t = ((cfg0.win 2).blk t).view.read (Elt Ideal) (sumsArr m c) := by
  have h7 : t.val % 8 = 7 := (flush0_2 t).mp hf
  have hN : t.val < 16 := lt_of_lt_of_eq t.isLt N_0
  have hi := (index_out t).1
  show (cfg0.win 2).cut (grid0.coords t) ((dats m 0 c).after 2 t) = _
  rw [after0_2]
  funext y
  rw [View.read_apply]
  have hy0 : (y 0).val < 1 := lt_of_lt_of_eq (y 0).isLt (index_out t).2.2.1.1
  have hy1 : (y 1).val < 2048 := lt_of_lt_of_eq (y 1).isLt (index_out t).2.2.1.2.1
  have hy2 : (y 2).val < 512 := lt_of_lt_of_eq (y 2).isLt (index_out t).2.2.1.2.2
  have hk : t.val / 8 < 2 := by omega
  have e1 : ((cfg0.win 2).blk t).view.emb y = ix3 (⟨t.val / 8, hk⟩ : Fin 2) (⟨(y 1).val, hy1⟩ : Fin 2048) (⟨(y 2).val, hy2⟩ : Fin 512) := by
    funext a
    apply Fin.ext
    match a with
    | ⟨0, _⟩ => show win0_2.index t 0 * 1 + 1 * (y 0).val = t.val / 8; rw [hi.1]; omega
    | ⟨1, _⟩ => show win0_2.index t 1 * 2048 + 1 * (y 1).val = (y 1).val; rw [hi.2.1]; omega
    | ⟨2, _⟩ => show win0_2.index t 2 * 512 + 1 * (y 2).val = (y 2).val; rw [hi.2.2]; omega
  rw [e1, sumsArr_apply]
  have e2 : (fun a => (y a : S1x2048x512.Coord a)) = ix3 (0 : Fin 1) (⟨(y 1).val, hy1⟩ : Fin 2048) (⟨(y 2).val, hy2⟩ : Fin 512) := by
    funext a
    apply Fin.ext
    match a with
    | ⟨0, _⟩ => show (y 0).val = 0; omega
    | ⟨1, _⟩ => rfl
    | ⟨2, _⟩ => rfl
  have hlt : t.val / 8 * 8 + 7 < cfg0.N := lt_of_lt_of_eq (by omega : t.val / 8 * 8 + 7 < 16) N_0.symm
  have hv : t.val = t.val / 8 * 8 + 7 := by omega
  show (outsAt0 m c t.val t.isLt).1 (fun a => (y a : S1x2048x512.Coord a)) = _
  rw [e2]
  have key := sums_last m hfin c ⟨t.val / 8, hk⟩ hlt ⟨(y 1).val, hy1⟩ ⟨(y 2).val, hy2⟩
  have tr : ∀ (n : ℕ) (hn : n < cfg0.N), n = t.val / 8 * 8 + 7 →
      (outsAt0 m c n hn).1 (ix3 (0 : Fin 1) (⟨(y 1).val, hy1⟩ : Fin 2048) (⟨(y 2).val, hy2⟩ : Fin 512))
        = halfSums m c ⟨t.val / 8, hk⟩ ⟨(y 1).val, hy1⟩ ⟨(y 2).val, hy2⟩ := by
    intro n hn e
    subst e
    exact key
  exact tr t.val t.isLt hv

include hfin in
/-- What a flushing point writes back to the auxiliary array is that point's block of the closed form. -/
theorem flushed_aux (c : Dev nD) (t : Fin cfg0.N) (hf : (cfg0.win 3).flush t = true) :
    (dats m 0 c).flushed 3 t = ((cfg0.win 3).blk t).view.read (Elt Ideal) (auxArr m c) := by
  have h7 : t.val % 8 = 7 := (flush0_3 t).mp hf
  have hN : t.val < 16 := lt_of_lt_of_eq t.isLt N_0
  have hi := (index_out t).2.1
  show (cfg0.win 3).cut (grid0.coords t) ((dats m 0 c).after 3 t) = _
  rw [after0_3]
  funext y
  rw [View.read_apply]
  have hy0 : (y 0).val < 1 := lt_of_lt_of_eq (y 0).isLt (index_out t).2.2.2.1
  have hy1 : (y 1).val < 2048 := lt_of_lt_of_eq (y 1).isLt (index_out t).2.2.2.2.1
  have hy2 : (y 2).val < 3 := lt_of_lt_of_eq (y 2).isLt (index_out t).2.2.2.2.2
  have hk : t.val / 8 < 2 := by omega
  have e1 : ((cfg0.win 3).blk t).view.emb y = ix3 (⟨t.val / 8, hk⟩ : Fin 2) (⟨(y 1).val, hy1⟩ : Fin 2048) (⟨(y 2).val, hy2⟩ : Fin 3) := by
    funext a
    apply Fin.ext
    match a with
    | ⟨0, _⟩ => show win0_3.index t 0 * 1 + 1 * (y 0).val = t.val / 8; rw [hi.1]; omega
    | ⟨1, _⟩ => show win0_3.index t 1 * 2048 + 1 * (y 1).val = (y 1).val; rw [hi.2.1]; omega
    | ⟨2, _⟩ => show win0_3.index t 2 * 3 + 1 * (y 2).val = (y 2).val; rw [hi.2.2]; omega
  rw [e1, auxArr_apply]
  have e2 : (fun a => (y a : S1x2048x3.Coord a)) = ix3 (0 : Fin 1) (⟨(y 1).val, hy1⟩ : Fin 2048) (⟨(y 2).val, hy2⟩ : Fin 3) := by
    funext a
    apply Fin.ext
    match a with
    | ⟨0, _⟩ => show (y 0).val = 0; omega
    | ⟨1, _⟩ => rfl
    | ⟨2, _⟩ => rfl
  have hlt : t.val / 8 * 8 + 7 < cfg0.N := lt_of_lt_of_eq (by omega : t.val / 8 * 8 + 7 < 16) N_0.symm
  have hv : t.val = t.val / 8 * 8 + 7 := by omega
  show (outsAt0 m c t.val t.isLt).2 (fun a => (y a : S1x2048x3.Coord a)) = _
  rw [e2]
  have key := aux_last m hfin c ⟨t.val / 8, hk⟩ hlt ⟨(y 1).val, hy1⟩ ⟨(y 2).val, hy2⟩
  have tr : ∀ (n : ℕ) (hn : n < cfg0.N), n = t.val / 8 * 8 + 7 →
      (outsAt0 m c n hn).2 (ix3 (0 : Fin 1) (⟨(y 1).val, hy1⟩ : Fin 2048) (⟨(y 2).val, hy2⟩ : Fin 3))
        = halfAux m c ⟨t.val / 8, hk⟩ ⟨(y 1).val, hy1⟩ ⟨(y 2).val, hy2⟩ := by
    intro n hn e
    subst e
    exact key
  exact tr t.val t.isLt hv

/-- The last point of half `k`. -/
def lastPt (k : ℕ) (hk : k < 2) : Fin cfg0.N := ⟨k * 8 + 7, lt_of_lt_of_eq (by omega : k * 8 + 7 < 16) N_0.symm⟩

/-- Every entry of the sums array lies in the slab its half's last point writes back. -/
theorem cover_sums (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 2048 := (i 1).isLt
  have h2 : (i 2 : Nat) < 512 := (i 2).isLt
  refine ⟨lastPt (i 0).val h0, (flush0_2 _).mpr (by show ((i 0).val * 8 + 7) % 8 = 7; omega), ?_⟩
  have hi := (index_out (lastPt (i 0).val h0)).1
  have hx := (index_out (lastPt (i 0).val h0)).2.2.1
  have hv : (lastPt (i 0).val h0).val / 8 = (i 0).val := by show ((i 0).val * 8 + 7) / 8 = (i 0).val; omega
  show i ∈ ((View.whole main_v4_0).slice (win0_2.rect (lastPt (i 0).val h0))).set
  rw [View.set_slice_whole, Rect.mem_set_unit]
  intro a
  match a with
  | ⟨0, _⟩ =>
    show win0_2.index (lastPt (i 0).val h0) 0 * 1 ≤ (i 0 : Nat) ∧ (i 0 : Nat) < win0_2.index (lastPt (i 0).val h0) 0 * 1 + win0_2.xsize (grid0.coords (lastPt (i 0).val h0)) 0
    rw [hi.1, hx.1, hv]; omega
  | ⟨1, _⟩ =>
    show win0_2.index (lastPt (i 0).val h0) 1 * 2048 ≤ (i 1 : Nat) ∧ (i 1 : Nat) < win0_2.index (lastPt (i 0).val h0) 1 * 2048 + win0_2.xsize (grid0.coords (lastPt (i 0).val h0)) 1
    rw [hi.2.1, hx.2.1]; omega
  | ⟨2, _⟩ =>
    show win0_2.index (lastPt (i 0).val h0) 2 * 512 ≤ (i 2 : Nat) ∧ (i 2 : Nat) < win0_2.index (lastPt (i 0).val h0) 2 * 512 + win0_2.xsize (grid0.coords (lastPt (i 0).val h0)) 2
    rw [hi.2.2, hx.2.2]; omega

/-- Every entry of the auxiliary array lies in the slab its half's last point writes back. -/
theorem cover_aux (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2 := (i 0).isLt
  have h1 : (i 1 : Nat) < 2048 := (i 1).isLt
  have h2 : (i 2 : Nat) < 3 := (i 2).isLt
  refine ⟨lastPt (i 0).val h0, (flush0_3 _).mpr (by show ((i 0).val * 8 + 7) % 8 = 7; omega), ?_⟩
  have hi := (index_out (lastPt (i 0).val h0)).2.1
  have hx := (index_out (lastPt (i 0).val h0)).2.2.2
  have hv : (lastPt (i 0).val h0).val / 8 = (i 0).val := by show ((i 0).val * 8 + 7) / 8 = (i 0).val; omega
  show i ∈ ((View.whole main_v4_1).slice (win0_3.rect (lastPt (i 0).val h0))).set
  rw [View.set_slice_whole, Rect.mem_set_unit]
  intro a
  match a with
  | ⟨0, _⟩ =>
    show win0_3.index (lastPt (i 0).val h0) 0 * 1 ≤ (i 0 : Nat) ∧ (i 0 : Nat) < win0_3.index (lastPt (i 0).val h0) 0 * 1 + win0_3.xsize (grid0.coords (lastPt (i 0).val h0)) 0
    rw [hi.1, hx.1, hv]; omega
  | ⟨1, _⟩ =>
    show win0_3.index (lastPt (i 0).val h0) 1 * 2048 ≤ (i 1 : Nat) ∧ (i 1 : Nat) < win0_3.index (lastPt (i 0).val h0) 1 * 2048 + win0_3.xsize (grid0.coords (lastPt (i 0).val h0)) 1
    rw [hi.2.1, hx.2.1]; omega
  | ⟨2, _⟩ =>
    show win0_3.index (lastPt (i 0).val h0) 2 * 3 ≤ (i 2 : Nat) ∧ (i 2 : Nat) < win0_3.index (lastPt (i 0).val h0) 2 * 3 + win0_3.xsize (grid0.coords (lastPt (i 0).val h0)) 2
    rw [hi.2.2, hx.2.2]; omega

include hfin in
/-- The sums array after the run is the closed form. -/
theorem final_sums (c : Dev nD) : (dats m 0 c).arrAt 2 cfg0.N = sumsArr m c :=
  (dats m 0 c).arrAt_eq_of_cover 2 (sumsArr m c) (flushed_sums m hfin c) (cover_sums c)

include hfin in
/-- The auxiliary array after the run is the closed form. -/
theorem final_aux (c : Dev nD) : (dats m 0 c).arrAt 3 cfg0.N = auxArr m c :=
  (dats m 0 c).arrAt_eq_of_cover 3 (auxArr m c) (flushed_aux m hfin c) (cover_aux c)

include hfin in
/-- The run, read: from real features every weakly fair execution ends with the result at the common last stretch of the
    kernel's counts and mean distances (read off the closed-form arrays) and the arguments unchanged. -/
theorem run : θ_run defs (onTc (τ := τ) (main (F := Ideal))) ⟨m, fun _ => 0, ρ⟩ fun r => ∀ c : Dev nD,
      r.2.mem ((c : Thread nD τ).loc main_v43)
        = tail (F := Ideal) bcast_S_S2048 shapeCasts_S2048_S4x512 reducesTo_S4x512_S4_d1 bcast_S_S4 reducesTo_S4_S_d0 h_S_
            (countK (auxArr m c)) (distKv (sumsArr m c) (auxArr m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v43 (Pipeline.mem_restRefs_of main_v43 (by decide) (by decide))).trans
        (tail_value m (dats m) c (sumsArr m c) (auxArr m c) (final_sums m hfin c) (final_aux m hfin c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.KResult.lean ====
import proofs.«431362_j84052509982804_3_alg».proof.Proof.KTail
import proofs.«431362_j84052509982804_3_alg».proof.Proof.KArrays
import proofs.«431362_j84052509982804_3_alg».proof.Proof.SegBlocks

/-!
# The kernel's counts and mean distances, in the common vocabulary

Adding the two halves' slabs gives the whole statistics: the counts, the coordinate sums and the sums of squared norms
of the groups (the blocks' shares add up); column 2 contributes zero. So the kernel's per-group mean distance is the
expanded formula.
-/

noncomputable section

open Idealize.ShloMosaic Idealize.ShloMosaic.TcCoe Idealize.SL.Sem Idealize.ShloMosaic.ValueIdx

namespace Cert.KernelIdeal.Result

open Cert.KernelIdeal Cert.SegSpec Cert.KernelIdeal.Arrays Cert.KernelIdeal.Tail

variable (m : (ℓ : Loc nD τ sig) → Buf (Elt Ideal) ℓ)

/-! ## The two halves added: the blocks' shares add up to the group's statistics -/

/-- Column 0 of the two halves' triples: the group's count. -/
private theorem col0 (c : Dev nD) (g : Fin 2048) :
    ∑ h : Fin 2, halfAux m c h g (0 : Fin 3) = cnt (words m c) g :=
  (Finset.sum_congr rfl fun h _ =>
    (rfl : halfAux m c h g (0 : Fin 3) = ∑ j : Fin 8, blkCnt (words m c) (pt h j) g)).trans
    (sum_blkCnt (words m c) g)

/-- Column 1: the group's sum of squared norms. -/
private theorem col1 (c : Dev nD) (g : Fin 2048) :
    ∑ h : Fin 2, halfAux m c h g (1 : Fin 3) = sqs (words m c) (feats m c) g :=
  (Finset.sum_congr rfl fun h _ =>
    (rfl : halfAux m c h g (1 : Fin 3) = ∑ j : Fin 8, blkSq (words m c) (feats m c) (pt h j) g)).trans
    (sum_blkSq (words m c) (feats m c) g)

/-- Column 2: zero. -/
private theorem col2 (c : Dev nD) (g : Fin 2048) :
    ∑ h : Fin 2, halfAux m c h g (2 : Fin 3) = 0 :=
  (Finset.sum_congr rfl fun h _ => (rfl : halfAux m c h g (2 : Fin 3) = 0)).trans Finset.sum_const_zero

/-- The two halves' shares of a coordinate sum: the group's coordinate sum. -/
private theorem colS (c : Dev nD) (g : Fin 2048) (d : Fin 512) :
    ∑ h : Fin 2, halfSums m c h g d = sums (words m c) (feats m c) g d :=
  sum_blkSum (words m c) (feats m c) g d

/-- Two arrays whose halves add up to a family's counts, sums of squared norms, zero and coordinate sums
    give the expanded formula of that family. -/
private theorem dist_of_cols (A0 : FVec Ideal S2x2048x512 .f32) (A1 : FVec Ideal S2x2048x3 .f32) (g : Fin 2048)
    (s : Fin 65536 → BitVec 32) (x : Fin 65536 → Fin 512 → EReal)
    (h0 : ∑ h : Fin 2, A1 (ix3 h g (0 : Fin 3)) = cnt s g)
    (h1 : ∑ h : Fin 2, A1 (ix3 h g (1 : Fin 3)) = sqs s x g)
    (h2 : ∑ h : Fin 2, A1 (ix3 h g (2 : Fin 3)) = 0)
    (hS : ∀ d : Fin 512, ∑ h : Fin 2, A0 (ix3 h g d) = sums s x g d) :
    distKv (F := Ideal) A0 A1 (ix1 g) = distK s x g := by
  rw [distKv_apply, h0, h1, h2, add_zero]
  simp only [hS]
  rfl

/-- The kernel's count of group `g` is the group's count. -/
theorem count_result (c : Dev nD) (g : Fin 2048) :
    countK (F := Ideal) (auxArr m c) (ix1 g) = cnt (words m c) g :=
  (countK_apply (auxArr m c) g).trans (col0 m c g)

/-- The kernel's mean distance of group `g` is the expanded formula. -/
theorem dist_result (c : Dev nD) (g : Fin 2048) :
    distKv (F := Ideal) (sumsArr m c) (auxArr m c) (ix1 g) = distK (words m c) (feats m c) g :=
  dist_of_cols (sumsArr m c) (auxArr m c) g (words m c) (feats m c) (col0 m c g) (col1 m c g) (col2 m c g)
    (colS m c g)

end Cert.KernelIdeal.Result

end
-- ==== Proof.RefScatter.lean ====
import proofs.«431362_j84052509982804_3_alg».proof.ReferenceIdeal
import proofs.«431362_j84052509982804_3_alg».proof.Proof.Gen.ReferenceIdeal
import Idealize.ShloMosaic.PureOps.Ideal
import Idealize.ShloMosaic.Lib.ValueIdx

/-!
# The reference's scatter-adds and its gather, read at an index

A segment sum is a scatter-add whose scatter index of row `n` is the one word `idx (n, 0)`: at the extended reals
the result at group `g` is the operand there plus the sum of the updates of the rows whose word, read signed, is
`g`; a row whose word is outside the operand lands nowhere. The gather reads row `clamp (word)` of its table; for a
word that is a group's number the clamp does nothing.
-/

noncomputable section

namespace Cert.ReferenceIdeal.Scatter

open Cert.ReferenceIdeal Cert.ReferenceIdeal.Gen Idealize.ShloMosaic Idealize.ShloMosaic.ValueIdx

/-! ## The one-axis scatter-add -/

/-- One-axis record: the scatter-indices position update row `n` reads its one start component at is `(n, 0)`. -/
private theorem siIdx1 (n : Fin 65536) (c : Fin scatter_S2048_S65536x1_S65536_n_0_0_1.scatterDimsToOperandDims.length) :
    scatter_S2048_S65536x1_S65536_n_0_0_1.siIdx (ix1 n) c = ix2 n (0 : Fin 1) := by
  funext b
  refine Fin.ext ?_
  match b with
  | ⟨0, _⟩ => rfl
  | ⟨1, _⟩ =>
    have hl : scatter_S2048_S65536x1_S65536_n_0_0_1.scatterDimsToOperandDims.length = 1 := rfl
    have hc : c.val = 0 := by have := c.isLt; omega
    simp only [ScatterDims.siIdx]
    rw [dif_pos (show (1 : ℕ) = scatter_S2048_S65536x1_S65536_n_0_0_1.indexVectorDim from rfl)]
    exact hc

/-- One-axis record: the window of update row `n` starts at row `n`'s word, read signed. -/
private theorem start1 (idx : IVec S65536x1 32) (n : Fin 65536) (a : Fin S2048.rank) :
    scatter_S2048_S65536x1_S65536_n_0_0_1.start (ix1 n) idx a = (idx (ix2 n (0 : Fin 1))).toInt := by
  obtain rfl : a = 0 := Subsingleton.elim _ _
  unfold ScatterDims.start
  rw [dif_pos (show (0 : Fin S2048.rank) ∈ scatter_S2048_S65536x1_S65536_n_0_0_1.scatterDimsToOperandDims from List.mem_singleton.mpr rfl)]
  rw [siIdx1]

/-- One-axis record: the operand's one axis is inserted, so the window coordinate is `0`. -/
private theorem window1 (n : Fin 65536) (a : Fin S2048.rank) :
    scatter_S2048_S65536x1_S65536_n_0_0_1.window (ix1 n) a = 0 := by
  obtain rfl : a = 0 := Subsingleton.elim _ _
  unfold ScatterDims.window
  rw [dif_neg]
  decide

/-- One-axis record: update row `n` lands on group `g` exactly when its word, read signed, is `g`
    (a word outside `[0, 2048)` lands nowhere, and equals no `g`). -/
private theorem resultIdx1 (idx : IVec S65536x1 32) (n : Fin 65536) (g : Fin 2048) :
    scatter_S2048_S65536x1_S65536_n_0_0_1.resultIdx? (ix1 n) idx = some (ix1 g)
      ↔ (idx (ix2 n (0 : Fin 1))).toInt = (g.val : Int) := by
  unfold ScatterDims.resultIdx?
  constructor
  · intro h
    split at h
    · rename_i hr
      have h0 := congrArg Fin.val (congrFun (Option.some.inj h) 0)
      have hr0 := (hr 0).1
      rw [start1, window1] at hr0
      change ((scatter_S2048_S65536x1_S65536_n_0_0_1.start (ix1 n) idx 0
        + ((scatter_S2048_S65536x1_S65536_n_0_0_1.window (ix1 n) 0 : ℕ) : ℤ)).toNat) = g.val at h0
      rw [start1, window1] at h0
      omega
    · exact absurd h (by simp)
  · intro h
    have hr : ∀ a, 0 ≤ scatter_S2048_S65536x1_S65536_n_0_0_1.start (ix1 n) idx a
          + ((scatter_S2048_S65536x1_S65536_n_0_0_1.window (ix1 n) a : ℕ) : ℤ)
        ∧ scatter_S2048_S65536x1_S65536_n_0_0_1.start (ix1 n) idx a
          + ((scatter_S2048_S65536x1_S65536_n_0_0_1.window (ix1 n) a : ℕ) : ℤ) < ((S2048.size a : ℕ) : ℤ) := by
      intro a
      rw [start1, window1, h]
      obtain rfl : a = 0 := Subsingleton.elim _ _
      have := g.isLt
      have hs : S2048.size 0 = 2048 := rfl
      rw [hs]
      omega
    rw [dif_pos hr]
    refine congrArg some ?_
    funext a
    obtain rfl : a = 0 := Subsingleton.elim _ _
    refine Fin.ext ?_
    change ((scatter_S2048_S65536x1_S65536_n_0_0_1.start (ix1 n) idx 0
        + ((scatter_S2048_S65536x1_S65536_n_0_0_1.window (ix1 n) 0 : ℕ) : ℤ)).toNat) = g.val
    rw [start1, window1, h]
    omega

/-- The one-axis scatter-add at group `g`: the operand there plus the updates of the rows whose word is `g`. -/
theorem scatterAdd1_apply (x : FVec Ideal S2048 .f32) (idx : IVec S65536x1 32) (u : FVec Ideal S65536 .f32) (g : Fin 2048) :
    Host.scatterAdd (F := Ideal) scatter_S2048_S65536x1_S65536_n_0_0_1 x idx u (ix1 g)
      = x (ix1 g) + ∑ n ∈ Finset.univ.filter (fun n : Fin 65536 => (idx (ix2 n (0 : Fin 1))).toInt = (g.val : Int)), u (ix1 n) := by
  unfold Host.scatterAdd
  rw [Ideal.hostScatterAdd_def]
  unfold Ideal.hostScatterAdd
  refine congrArg (fun t => x (ix1 g) + t) ?_
  refine Finset.sum_nbij' (fun j : S65536.Idx => (j 0 : Fin 65536)) (fun n : Fin 65536 => (ix1 n : S65536.Idx)) ?_ ?_ ?_ ?_ ?_
  · intro j hj
    obtain ⟨m, rfl⟩ : ∃ m : Fin 65536, j = ix1 m := ⟨j 0, eq_ix1 j⟩
    rw [Finset.mem_filter] at hj ⊢
    exact ⟨Finset.mem_univ _, (resultIdx1 idx m g).1 hj.2⟩
  · intro m hm
    rw [Finset.mem_filter] at hm ⊢
    exact ⟨Finset.mem_univ _, (resultIdx1 idx m g).2 hm.2⟩
  · intro j _
    exact (eq_ix1 j).symm
  · intro m _
    rfl
  · intro j _
    exact congrArg u (eq_ix1 j)

/-! ## The row scatter-add -/

/-- Row record: the scatter-indices position update element `(n, d)` reads its one start component at is `(n, 0)`. -/
private theorem siIdx2 (n : Fin 65536) (d : Fin 512) (c : Fin scatter_S2048x512_S65536x1_S65536x512_1_0_0_1.scatterDimsToOperandDims.length) :
    scatter_S2048x512_S65536x1_S65536x512_1_0_0_1.siIdx (ix2 n d) c = ix2 n (0 : Fin 1) := by
  funext b
  refine Fin.ext ?_
  match b with
  | ⟨0, _⟩ => rfl
  | ⟨1, _⟩ =>
    have hl : scatter_S2048x512_S65536x1_S65536x512_1_0_0_1.scatterDimsToOperandDims.length = 1 := rfl
    have hc : c.val = 0 := by have := c.isLt; omega
    simp only [ScatterDims.siIdx]
    rw [dif_pos (show (1 : ℕ) = scatter_S2048x512_S65536x1_S65536x512_1_0_0_1.indexVectorDim from rfl)]
    exact hc

/-- Row record, axis 0: the window of `(n, d)` starts at row `n`'s word, read signed. -/
private theorem start2_0 (idx : IVec S65536x1 32) (n : Fin 65536) (d : Fin 512) :
    scatter_S2048x512_S65536x1_S65536x512_1_0_0_1.start (ix2 n d) idx ⟨0, by decide⟩ = (idx (ix2 n (0 : Fin 1))).toInt := by
  unfold ScatterDims.start
  rw [dif_pos (show (⟨0, by decide⟩ : Fin S2048x512.rank) ∈ scatter_S2048x512_S65536x1_S65536x512_1_0_0_1.scatterDimsToOperandDims
    from List.mem_singleton.mpr rfl)]
  rw [siIdx2]

/-- Row record, axis 1: the start index map does not name it, so the start is `0`. -/
private theorem start2_1 (idx : IVec S65536x1 32) (n : Fin 65536) (d : Fin 512) :
    scatter_S2048x512_S65536x1_S65536x512_1_0_0_1.start (ix2 n d) idx ⟨1, by decide⟩ = 0 := by
  unfold ScatterDims.start
  rw [dif_neg]
  decide

/-- Row record, axis 0: inserted, so the window coordinate is `0`. -/
private theorem window2_0 (n : Fin 65536) (d : Fin 512) :
    scatter_S2048x512_S65536x1_S65536x512_1_0_0_1.window (ix2 n d) ⟨0, by decide⟩ = 0 := by
  unfold ScatterDims.window
  rw [dif_neg]
  decide

/-- Row record, axis 1: the window coordinate is the update's column `d`. -/
private theorem window2_1 (n : Fin 65536) (d : Fin 512) :
    scatter_S2048x512_S65536x1_S65536x512_1_0_0_1.window (ix2 n d) ⟨1, by decide⟩ = d.val := by
  unfold ScatterDims.window
  rw [dif_pos (by decide)]
  rfl

/-- Row record: update element `(n, d')` lands on `(g, d)` exactly when row `n`'s word is `g` and `d' = d`. -/
private theorem resultIdx2 (idx : IVec S65536x1 32) (n : Fin 65536) (d' : Fin 512) (g : Fin 2048) (d : Fin 512) :
    scatter_S2048x512_S65536x1_S65536x512_1_0_0_1.resultIdx? (ix2 n d') idx = some (ix2 g d)
      ↔ (idx (ix2 n (0 : Fin 1))).toInt = (g.val : Int) ∧ d' = d := by
  unfold ScatterDims.resultIdx?
  constructor
  · intro h
    split at h
    · rename_i hr
      have e := Option.some.inj h
      have h0 := congrArg Fin.val (congrFun e ⟨0, by decide⟩)
      have h1 := congrArg Fin.val (congrFun e ⟨1, by decide⟩)
      have hr0 := (hr ⟨0, by decide⟩).1
      rw [start2_0, window2_0] at hr0
      change (scatter_S2048x512_S65536x1_S65536x512_1_0_0_1.start (ix2 n d') idx ⟨0, by decide⟩
        + ((scatter_S2048x512_S65536x1_S65536x512_1_0_0_1.window (ix2 n d') ⟨0, by decide⟩ : ℕ) : ℤ)).toNat = g.val at h0
      change (scatter_S2048x512_S65536x1_S65536x512_1_0_0_1.start (ix2 n d') idx ⟨1, by decide⟩
        + ((scatter_S2048x512_S65536x1_S65536x512_1_0_0_1.window (ix2 n d') ⟨1, by decide⟩ : ℕ) : ℤ)).toNat = d.val at h1
      rw [start2_0, window2_0] at h0
      rw [start2_1, window2_1] at h1
      exact ⟨by omega, Fin.ext (by omega)⟩
    · exact absurd h (by simp)
  · rintro ⟨h, rfl⟩
    have hr : ∀ a, 0 ≤ scatter_S2048x512_S65536x1_S65536x512_1_0_0_1.start (ix2 n d') idx a + ((scatter_S2048x512_S65536x1_S65536x512_1_0_0_1.window (ix2 n d') a : ℕ) : ℤ)
        ∧ scatter_S2048x512_S65536x1_S65536x512_1_0_0_1.start (ix2 n d') idx a + ((scatter_S2048x512_S65536x1_S65536x512_1_0_0_1.window (ix2 n d') a : ℕ) : ℤ) < ((S2048x512.size a : ℕ) : ℤ) := by
      intro a
      match a with
      | ⟨0, _⟩ =>
        rw [start2_0, window2_0, h]
        have := g.isLt
        have hs : S2048x512.size ⟨0, by decide⟩ = 2048 := rfl
        rw [hs]; omega
      | ⟨1, _⟩ =>
        rw [start2_1, window2_1]
        have := d'.isLt
        have hs : S2048x512.size ⟨1, by decide⟩ = 512 := rfl
        rw [hs]; omega
    rw [dif_pos hr]
    refine congrArg some ?_
    funext a
    refine Fin.ext ?_
    match a with
    | ⟨0, _⟩ =>
      change (scatter_S2048x512_S65536x1_S65536x512_1_0_0_1.start (ix2 n d') idx ⟨0, by decide⟩
        + ((scatter_S2048x512_S65536x1_S65536x512_1_0_0_1.window (ix2 n d') ⟨0, by decide⟩ : ℕ) : ℤ)).toNat = g.val
      rw [start2_0, window2_0, h]; omega
    | ⟨1, _⟩ =>
      change (scatter_S2048x512_S65536x1_S65536x512_1_0_0_1.start (ix2 n d') idx ⟨1, by decide⟩
        + ((scatter_S2048x512_S65536x1_S65536x512_1_0_0_1.window (ix2 n d') ⟨1, by decide⟩ : ℕ) : ℤ)).toNat = d'.val
      rw [start2_1, window2_1]; omega

/-- The row scatter-add at `(g, d)`: the operand there plus coordinate `d` of the rows whose word is `g`. -/
theorem scatterAdd2_apply (x : FVec Ideal S2048x512 .f32) (idx : IVec S65536x1 32) (u : FVec Ideal S65536x512 .f32)
    (g : Fin 2048) (d : Fin 512) :
    Host.scatterAdd (F := Ideal) scatter_S2048x512_S65536x1_S65536x512_1_0_0_1 x idx u (ix2 g d)
      = x (ix2 g d) + ∑ n ∈ Finset.univ.filter (fun n : Fin 65536 => (idx (ix2 n (0 : Fin 1))).toInt = (g.val : Int)), u (ix2 n d) := by
  unfold Host.scatterAdd
  rw [Ideal.hostScatterAdd_def]
  unfold Ideal.hostScatterAdd
  refine congrArg (fun t => x (ix2 g d) + t) ?_
  refine Finset.sum_nbij' (fun j : S65536x512.Idx => (j 0 : Fin 65536)) (fun n : Fin 65536 => (ix2 n d : S65536x512.Idx)) ?_ ?_ ?_ ?_ ?_
  · intro j hj
    obtain ⟨m, d', rfl⟩ : ∃ (m : Fin 65536) (d' : Fin 512), j = ix2 m d' := ⟨j 0, j 1, eq_ix2 j⟩
    rw [Finset.mem_filter] at hj ⊢
    exact ⟨Finset.mem_univ _, ((resultIdx2 idx m d' g d).1 hj.2).1⟩
  · intro m hm
    rw [Finset.mem_filter] at hm ⊢
    exact ⟨Finset.mem_univ _, (resultIdx2 idx m d g d).2 ⟨hm.2, rfl⟩⟩
  · intro j hj
    obtain ⟨m, d', rfl⟩ : ∃ (m : Fin 65536) (d' : Fin 512), j = ix2 m d' := ⟨j 0, j 1, eq_ix2 j⟩
    rw [Finset.mem_filter] at hj
    obtain rfl := ((resultIdx2 idx m d' g d).1 hj.2).2
    rfl
  · intro m _
    rfl
  · intro j hj
    obtain ⟨m, d', rfl⟩ : ∃ (m : Fin 65536) (d' : Fin 512), j = ix2 m d' := ⟨j 0, j 1, eq_ix2 j⟩
    rw [Finset.mem_filter] at hj
    obtain rfl := ((resultIdx2 idx m d' g d).1 hj.2).2
    rfl

/-! ## The row gather -/

/-- Gather: the start-indices position result element `(n, d)` reads its one start component at is `(n, 0)`. -/
private theorem gsiIdx (n : Fin 65536) (d : Fin 512) (c : Fin gather_S2048x512_S65536x1_S65536x512_1_0_n_n_0_1_1512.startIndexMap.length) :
    gather_S2048x512_S65536x1_S65536x512_1_0_n_n_0_1_1512.siIdx (ix2 n d) c = ix2 n (0 : Fin 1) := by
  funext b
  refine Fin.ext ?_
  match b with
  | ⟨0, _⟩ => rfl
  | ⟨1, _⟩ =>
    have hl : gather_S2048x512_S65536x1_S65536x512_1_0_n_n_0_1_1512.startIndexMap.length = 1 := rfl
    have hc : c.val = 0 := by have := c.isLt; omega
    simp only [GatherDims.siIdx]
    rw [dif_pos (show (1 : ℕ) = gather_S2048x512_S65536x1_S65536x512_1_0_n_n_0_1_1512.indexVectorDim from rfl)]
    exact hc

/-- Gather, axis 0: the slice starts at row `n`'s word, read signed and clamped into `[0, 2047]`. -/
private theorem gstart_0 (idx : IVec S65536x1 32) (n : Fin 65536) (d : Fin 512) :
    gather_S2048x512_S65536x1_S65536x512_1_0_n_n_0_1_1512.start (ix2 n d) idx ⟨0, by decide⟩ = min (idx (ix2 n (0 : Fin 1))).toInt.toNat (2048 - 1) := by
  unfold GatherDims.start
  rw [dif_pos (show (⟨0, by decide⟩ : Fin S2048x512.rank) ∈ gather_S2048x512_S65536x1_S65536x512_1_0_n_n_0_1_1512.startIndexMap from List.mem_singleton.mpr rfl)]
  rw [gsiIdx]
  rfl

/-- Gather, axis 1: the start index map does not name it, so the start is `0`. -/
private theorem gstart_1 (idx : IVec S65536x1 32) (n : Fin 65536) (d : Fin 512) :
    gather_S2048x512_S65536x1_S65536x512_1_0_n_n_0_1_1512.start (ix2 n d) idx ⟨1, by decide⟩ = 0 := by
  unfold GatherDims.start
  rw [dif_neg]
  decide

/-- Gather: there is no batching axis, so the batching coordinate is `0`. -/
private theorem gbatch (n : Fin 65536) (d : Fin 512) (a : Fin S2048x512.rank) :
    gather_S2048x512_S65536x1_S65536x512_1_0_n_n_0_1_1512.batchCoord (ix2 n d) a = 0 :=
  GatherDims.batchCoord_eq_zero _ _ _ List.not_mem_nil

/-- Gather, axis 0: collapsed, so the offset coordinate is `0`. -/
private theorem goff_0 (n : Fin 65536) (d : Fin 512) :
    gather_S2048x512_S65536x1_S65536x512_1_0_n_n_0_1_1512.offCoord (ix2 n d) ⟨0, by decide⟩ = 0 := by
  unfold GatherDims.offCoord
  rw [dif_neg]
  decide

/-- Gather, axis 1: the offset coordinate is the result's column `d`. -/
private theorem goff_1 (n : Fin 65536) (d : Fin 512) :
    gather_S2048x512_S65536x1_S65536x512_1_0_n_n_0_1_1512.offCoord (ix2 n d) ⟨1, by decide⟩ = d.val := by
  unfold GatherDims.offCoord
  rw [dif_pos (by decide)]
  rfl

/-- The row gather at `(n, d)`, when row `n`'s word is group `g`'s number: the table's row `g`. -/
theorem gather_apply {α : Type} (x : S2048x512.Idx → α) (idx : IVec S65536x1 32) (n : Fin 65536) (d : Fin 512) (g : Fin 2048)
    (hg : (idx (ix2 n (0 : Fin 1))).toInt = (g.val : Int)) :
    Host.gather gather_S2048x512_S65536x1_S65536x512_1_0_n_n_0_1_1512 x idx (ix2 n d) = x (ix2 g d) := by
  unfold Host.gather
  refine congrArg x ?_
  funext a
  refine Fin.ext ?_
  match a with
  | ⟨0, _⟩ =>
    change gather_S2048x512_S65536x1_S65536x512_1_0_n_n_0_1_1512.start (ix2 n d) idx ⟨0, by decide⟩ + gather_S2048x512_S65536x1_S65536x512_1_0_n_n_0_1_1512.batchCoord (ix2 n d) ⟨0, by decide⟩
      + gather_S2048x512_S65536x1_S65536x512_1_0_n_n_0_1_1512.offCoord (ix2 n d) ⟨0, by decide⟩ = g.val
    rw [gstart_0, gbatch, goff_0, hg]
    have := g.isLt
    omega
  | ⟨1, _⟩ =>
    change gather_S2048x512_S65536x1_S65536x512_1_0_n_n_0_1_1512.start (ix2 n d) idx ⟨1, by decide⟩ + gather_S2048x512_S65536x1_S65536x512_1_0_n_n_0_1_1512.batchCoord (ix2 n d) ⟨1, by decide⟩
      + gather_S2048x512_S65536x1_S65536x512_1_0_n_n_0_1_1512.offCoord (ix2 n d) ⟨1, by decide⟩ = d.val
    rw [gstart_1, gbatch, goff_1]
    omega

end Cert.ReferenceIdeal.Scatter

end
-- ==== Proof.RefValue.lean ====
import proofs.«431362_j84052509982804_3_alg».proof.Proof.RefRead
import proofs.«431362_j84052509982804_3_alg».proof.Proof.RefScatter
import proofs.«431362_j84052509982804_3_alg».proof.Proof.SegSpec
import proofs.«431362_j84052509982804_3_alg».proof.Proof.SegBlocks

/-!
# The reference, in the common vocabulary

The reference's per-group count is the number of the group's rows; its per-group mean distance is the direct
formula `(∑ rows ∑ d (x - mean)²) / max count 1`, the mean read back through the gather at each row's own group; and
its result is the common last stretch of those two.
-/

noncomputable section

namespace Cert.ReferenceIdeal.RefValue

open Cert.ReferenceIdeal Cert.ReferenceIdeal.Gen Cert.ReferenceIdeal.Read Idealize.ShloMosaic Idealize.ShloMosaic.ValueIdx Cert.SegSpec

/-! ## The segment words, as each index operand reads them -/

/-- Row `n`'s segment word, `demographic · 512 + label`, as the reference computes it. -/
private theorem word2 (x1 x2 : IVec S65536 32) (n : Fin 65536) :
    val_main_v2 (F := Ideal) x1 x2 (ix1 n) = segW x1 x2 n := by
  rw [val_main_v2_apply, val_main_v1_apply, val_main_v0_apply, val_main_c_apply]
  rfl

/-- Position `(n, 0)` of a column copy reads position `n` of the vector. -/
private theorem colIdx (n : Fin 65536) : idx_main_v5 (ix2 n (0 : Fin 1)) = ix1 n := by
  funext a
  match a with
  | ⟨0, _⟩ => rfl

/-- The index operand of the count's segment sum holds the segment words. -/
private theorem word5 (x1 x2 : IVec S65536 32) (n : Fin 65536) :
    val_main_v5 (F := Ideal) x1 x2 (ix2 n (0 : Fin 1)) = segW x1 x2 n :=
  (val_main_v5_apply x1 x2 _).trans ((congrArg (val_main_v2 (F := Ideal) x1 x2) (colIdx n)).trans (word2 x1 x2 n))

/-- The reference's count of group `g`. -/
theorem count_eq (x1 x2 : IVec S65536 32) (g : Fin 2048) :
    val_main_v6 (F := Ideal) x1 x2 (ix1 g) = cnt (segW x1 x2) g := by
  unfold val_main_v6
  refine (Scatter.scatterAdd1_apply _ _ _ g).trans ?_
  -- the operand is the zero vector
  rw [val_main_v4_apply, val_main_cst_0_apply, Ideal.ofBits_def, ofBits_zero_f32, zero_add]
  unfold cnt rows
  -- the rows selected are those whose segment word is `g`; each contributes the constant one
  refine Finset.sum_congr (Finset.filter_congr fun n _ => by rw [word5]) fun n _ => ?_
  rw [val_main_v3_apply, val_main_cst_apply, Ideal.ofBits_def, ofBits_one_f32]

/-! ## The group means -/

/-- The divisor: the count, or one for an empty group. -/
private theorem safe_eq (x1 x2 : IVec S65536 32) (g : Fin 2048) :
    val_main_v11 (F := Ideal) x1 x2 (ix1 g) = safe (segW x1 x2) g := by
  rw [val_main_v11_apply, Ideal.maximumf_def, count_eq, val_main_v10_apply, val_main_cst_2_apply, Ideal.ofBits_def,
    ofBits_one_f32]
  rfl

/-- Position `(g, d)` of the divisor spread along the features reads position `g`. -/
private theorem spreadIdx (g : Fin 2048) (d : Fin 512) : idx_main_v12 (idx_main_v13 (ix2 g d)) = ix1 g := by
  funext a
  match a with
  | ⟨0, _⟩ => rfl

/-- The divisor, spread along the features. -/
private theorem safe13_eq (x1 x2 : IVec S65536 32) (g : Fin 2048) (d : Fin 512) :
    val_main_v13 (F := Ideal) x1 x2 (ix2 g d) = safe (segW x1 x2) g :=
  (val_main_v13_apply x1 x2 _).trans ((val_main_v12_apply x1 x2 _).trans
    ((congrArg (val_main_v11 (F := Ideal) x1 x2) (spreadIdx g d)).trans (safe_eq x1 x2 g)))

/-- The index operand of the coordinate sums holds the segment words. -/
private theorem word8 (x1 x2 : IVec S65536 32) (n : Fin 65536) :
    val_main_v8 (F := Ideal) x1 x2 (ix2 n (0 : Fin 1)) = segW x1 x2 n :=
  (val_main_v8_apply x1 x2 _).trans ((congrArg (val_main_v2 (F := Ideal) x1 x2) (colIdx n)).trans (word2 x1 x2 n))

/-- The reference's coordinate sums of group `g`. -/
private theorem sums_eq (x0 : FVec Ideal S65536x512 .f32) (x1 x2 : IVec S65536 32) (g : Fin 2048) (d : Fin 512) :
    val_main_v9 (F := Ideal) x0 x1 x2 (ix2 g d) = sums (segW x1 x2) (feat x0) g d := by
  unfold val_main_v9
  refine (Scatter.scatterAdd2_apply _ _ _ g d).trans ?_
  rw [val_main_v7_apply, val_main_cst_1_apply, Ideal.ofBits_def, ofBits_zero_f32, zero_add]
  unfold sums rows feat
  exact Finset.sum_congr (Finset.filter_congr fun n _ => by rw [word8]) fun n _ => rfl

/-- The reference's mean of group `g`, coordinate `d`. -/
private theorem mean_eq (x0 : FVec Ideal S65536x512 .f32) (x1 x2 : IVec S65536 32) (g : Fin 2048) (d : Fin 512) :
    val_main_v14 (F := Ideal) x0 x1 x2 (ix2 g d) = mean (segW x1 x2) (feat x0) g d := by
  rw [val_main_v14_apply, Ideal.hostDivf_def, sums_eq, safe13_eq]
  rfl

/-! ## The mean read back at each row -/

/-- A word that reads signed as a group's number is not negative, so the wrap-around of negative indices keeps it. -/
private theorem word20 (x1 x2 : IVec S65536 32) (n : Fin 65536) (g : Fin 2048)
    (hg : (segW x1 x2 n).toInt = (g.val : Int)) :
    val_main_v20 (F := Ideal) x1 x2 (ix2 n (0 : Fin 1)) = segW x1 x2 n := by
  refine (val_main_v20_apply x1 x2 _).trans ((congrArg (val_main_v19 (F := Ideal) x1 x2) (colIdx n)).trans ?_)
  rw [val_main_v19_apply, val_main_v16_apply, val_main_v15_apply, val_main_c_3_apply, word2]
  have hc : IntOp.cmpi .slt (segW x1 x2 n) 0#32 = 0#1 := by
    refine eq_zero_of_ne_one fun h => ?_
    have hlt := IntOp.cmpi_slt.1 h
    rw [hg, BitVec.toInt_zero] at hlt
    omega
  rw [hc, select_zero]

/-- At a row of group `g` the gather reads the group's mean. -/
private theorem gathered_eq (x0 : FVec Ideal S65536x512 .f32) (x1 x2 : IVec S65536 32) (n : Fin 65536) (d : Fin 512)
    (g : Fin 2048) (hg : (segW x1 x2 n).toInt = (g.val : Int)) :
    val_main_v21 (F := Ideal) x0 x1 x2 (ix2 n d) = mean (segW x1 x2) (feat x0) g d := by
  unfold val_main_v21
  refine (Scatter.gather_apply _ _ n d g ?_).trans (mean_eq x0 x1 x2 g d)
  rw [word20 x1 x2 n g hg]
  exact hg

/-- Position `k` of row `n`, as the row sum reads it. -/
private theorem rowIdx (n : Fin 65536) (k : Fin 512) : idx_main_v24 (ix1 n) k = ix2 n k := by
  funext a
  match a with
  | ⟨0, _⟩ => rfl
  | ⟨1, _⟩ => rfl

/-- At a row of group `g`: the squared distance to the group's mean. -/
private theorem sq_eq (x0 : FVec Ideal S65536x512 .f32) (x1 x2 : IVec S65536 32) (n : Fin 65536) (g : Fin 2048)
    (hg : (segW x1 x2 n).toInt = (g.val : Int)) :
    val_main_v24 (F := Ideal) x0 x1 x2 (ix1 n)
      = ∑ d : Fin 512, (feat x0 n d - mean (segW x1 x2) (feat x0) g d) * (feat x0 n d - mean (segW x1 x2) (feat x0) g d) := by
  rw [val_main_v24_apply, val_main_cst_5_apply, Ideal.ofBits_def, ofBits_zero_f32, zero_add]
  refine Finset.sum_congr rfl fun k _ => ?_
  rw [rowIdx, val_main_v23_apply, val_main_v22_apply, Ideal.mulf_def, Ideal.subf_def, gathered_eq x0 x1 x2 n k g hg]
  rfl

/-- The index operand of the distance's segment sum holds the segment words. -/
private theorem word26 (x1 x2 : IVec S65536 32) (n : Fin 65536) :
    val_main_v26 (F := Ideal) x1 x2 (ix2 n (0 : Fin 1)) = segW x1 x2 n :=
  (val_main_v26_apply x1 x2 _).trans ((congrArg (val_main_v2 (F := Ideal) x1 x2) (colIdx n)).trans (word2 x1 x2 n))

/-- The reference's mean distance of group `g`: the direct formula. -/
theorem dist_eq (x0 : FVec Ideal S65536x512 .f32) (x1 x2 : IVec S65536 32) (g : Fin 2048) :
    val_main_v28 (F := Ideal) x0 x1 x2 (ix1 g) = distR (segW x1 x2) (feat x0) g := by
  rw [val_main_v28_apply, Ideal.hostDivf_def, safe_eq]
  unfold distR
  refine congrArg (fun t => Ideal.div t (safe (segW x1 x2) g)) ?_
  unfold val_main_v27
  refine (Scatter.scatterAdd1_apply _ _ _ g).trans ?_
  rw [val_main_v25_apply, val_main_cst_6_apply, Ideal.ofBits_def, ofBits_zero_f32, zero_add]
  unfold rows
  -- the rows selected are the group's; at each of them the update is the squared distance to the group's mean
  refine Finset.sum_congr (Finset.filter_congr fun n _ => by rw [word26]) fun n hn => ?_
  exact sq_eq x0 x1 x2 n g (Finset.mem_filter.1 hn).2

/-- The reference's result is the common last stretch of its counts and mean distances. -/
theorem result_eq {F : FTy → Type} [FloatOps F] (x0 : FVec F S65536x512 .f32) (x1 x2 : IVec S65536 32) :
    val_main_v46 (F := F) x0 x1 x2
      = tail (F := F) bcast_S_S2048 shapeCasts_S2048_S4x512 reducesTo_S4x512_S4_d1 bcast_S_S4 reducesTo_S4_S_d0 h_S_
          (val_main_v6 (F := F) x1 x2) (val_main_v28 (F := F) x0 x1 x2) := by
  rfl

end Cert.ReferenceIdeal.RefValue

end
-- ==== Proof.SegAlgebra.lean ====
import proofs.«431362_j84052509982804_3_alg».proof.Proof.SegSpec

/-!
# The two mean-distance formulas agree over the reals

For a finite family of real vectors `x n` (`n` in a group of `c` rows) with coordinate sums `S d` and mean
`μ d = S d / max c 1`:  `∑ n ∑ d (x n d - μ d)² = ∑ n ∑ d (x n d)² - c · ∑ d (μ d)²`.
For `c = 0` both sides are empty sums; for `c ≥ 1` the cross term `-2 ∑ d μ d · S d` is `-2 c ∑ d (μ d)²`.
The left side is a sum of squares, so clamping the right side at zero changes nothing.
-/

noncomputable section

namespace Cert.SegSpec

open Idealize.ShloMosaic

/-! ## The identity over the reals -/

/-- One coordinate, any centre `μ`: `∑ (f - μ)² = ∑ f² - 2 μ ∑ f + c μ²`. -/
private theorem sq_dev_sum {ι : Type*} (R : Finset ι) (f : ι → ℝ) (μ : ℝ) :
    ∑ n ∈ R, (f n - μ) * (f n - μ)
      = ∑ n ∈ R, f n * f n - 2 * μ * ∑ n ∈ R, f n + (R.card : ℝ) * (μ * μ) := by
  have h : ∀ n, (f n - μ) * (f n - μ) = f n * f n - 2 * μ * f n + μ * μ := fun n => by ring
  simp only [h, Finset.sum_add_distrib, Finset.sum_sub_distrib, ← Finset.mul_sum, Finset.sum_const, nsmul_eq_mul]
  ring

/-- All coordinates, the centre being the mean `S d / max c 1`: the direct form is the expanded form.
    An empty family makes both sides zero; otherwise `max c 1 = c` and `c · μ d = S d`. -/
private theorem real_identity {ι : Type*} (R : Finset ι) (r : ι → Fin 512 → ℝ) :
    ∑ n ∈ R, ∑ d : Fin 512, (r n d - (∑ k ∈ R, r k d) * (1 / max (R.card : ℝ) 1))
        * (r n d - (∑ k ∈ R, r k d) * (1 / max (R.card : ℝ) 1))
      = ∑ n ∈ R, ∑ d : Fin 512, r n d * r n d
        - (R.card : ℝ) * ∑ d : Fin 512, ((∑ k ∈ R, r k d) * (1 / max (R.card : ℝ) 1))
            * ((∑ k ∈ R, r k d) * (1 / max (R.card : ℝ) 1)) := by
  rcases R.eq_empty_or_nonempty with h | h
  · subst h; simp
  · have hc : (1 : ℝ) ≤ (R.card : ℝ) := by exact_mod_cast h.card_pos
    have hm : max (R.card : ℝ) 1 = R.card := max_eq_left hc
    have hc0 : (R.card : ℝ) ≠ 0 := by linarith
    rw [hm, Finset.sum_comm, Finset.sum_comm (s := R) (f := fun n d => r n d * r n d), Finset.mul_sum,
      ← Finset.sum_sub_distrib]
    refine Finset.sum_congr rfl fun d _ => ?_
    rw [sq_dev_sum]
    field_simp
    ring

/-- The direct form is a sum of squares. -/
private theorem real_nonneg {ι : Type*} (R : Finset ι) (r : ι → Fin 512 → ℝ) (μ : Fin 512 → ℝ) :
    0 ≤ ∑ n ∈ R, ∑ d : Fin 512, (r n d - μ d) * (r n d - μ d) :=
  Finset.sum_nonneg fun _ _ => Finset.sum_nonneg fun _ _ => mul_self_nonneg _

/-! ## Finite sums and maxima of real numbers, read in the extended reals -/

/-- The coercion of a finite real sum is the sum of the coercions. -/
private theorem coe_sum' {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of a maximum is the maximum of the coercions. -/
private theorem coe_max' (a b : ℝ) : ((max a b : ℝ) : EReal) = max (a : EReal) (b : EReal) :=
  EReal.coe_strictMono.monotone.map_max

/-! ## The statistics of a group of real rows are real -/

section
variable (s : Fin 65536 → BitVec 32) (r : Fin 65536 → Fin 512 → ℝ) (g : Fin 2048)

private theorem cnt_coe : cnt s g = (((rows s g).card : ℝ) : EReal) := by
  unfold cnt
  rw [← EReal.coe_one, ← coe_sum', Finset.sum_const, nsmul_eq_mul, mul_one]

private theorem sums_coe (d : Fin 512) :
    sums s (fun n d => (r n d : EReal)) g d = ((∑ n ∈ rows s g, r n d : ℝ) : EReal) :=
  (coe_sum' (rows s g) fun n => r n d).symm

private theorem sqs_coe :
    sqs s (fun n d => (r n d : EReal)) g = ((∑ n ∈ rows s g, ∑ d : Fin 512, r n d * r n d : ℝ) : EReal) := by
  unfold sqs
  rw [coe_sum']
  refine Finset.sum_congr rfl fun n _ => ?_
  rw [coe_sum']
  exact Finset.sum_congr rfl fun d _ => (EReal.coe_mul _ _).symm

private theorem safe_coe : safe s g = ((max ((rows s g).card : ℝ) 1 : ℝ) : EReal) := by
  unfold safe
  rw [cnt_coe, coe_max', EReal.coe_one]

private theorem safe_ne : max ((rows s g).card : ℝ) 1 ≠ 0 :=
  ne_of_gt (lt_of_lt_of_le one_pos (le_max_right _ _))

private theorem mean_coe (d : Fin 512) :
    mean s (fun n d => (r n d : EReal)) g d
      = (((∑ n ∈ rows s g, r n d) * (1 / max ((rows s g).card : ℝ) 1) : ℝ) : EReal) := by
  unfold mean
  rw [safe_coe, Ideal.div_coe (safe_ne s g), sums_coe, ← EReal.coe_mul]

end

/-- Over real entries the two formulas agree. -/
theorem distK_eq_distR (s : Fin 65536 → BitVec 32) (x : Fin 65536 → Fin 512 → EReal)
    (hx : ∀ n d, ∃ r : ℝ, x n d = (r : EReal)) (g : Fin 2048) : distK s x g = distR s x g := by
  choose r hr using hx
  obtain rfl : x = fun n d => (r n d : EReal) := funext fun n => funext fun d => hr n d
  unfold distK distR
  refine congrArg (fun z => Ideal.div z (safe s g)) ?_
  -- the expanded numerator, as a real number
  have hK : sqs s (fun n d => (r n d : EReal)) g
        - cnt s g * ∑ d : Fin 512, mean s (fun n d => (r n d : EReal)) g d * mean s (fun n d => (r n d : EReal)) g d
      = ((∑ n ∈ rows s g, ∑ d : Fin 512, r n d * r n d
          - ((rows s g).card : ℝ) * ∑ d : Fin 512, ((∑ k ∈ rows s g, r k d) * (1 / max ((rows s g).card : ℝ) 1))
              * ((∑ k ∈ rows s g, r k d) * (1 / max ((rows s g).card : ℝ) 1)) : ℝ) : EReal) := by
    have hM : ∑ d : Fin 512, mean s (fun n d => (r n d : EReal)) g d * mean s (fun n d => (r n d : EReal)) g d
        = ((∑ d : Fin 512, ((∑ k ∈ rows s g, r k d) * (1 / max ((rows s g).card : ℝ) 1))
              * ((∑ k ∈ rows s g, r k d) * (1 / max ((rows s g).card : ℝ) 1)) : ℝ) : EReal) := by
      rw [coe_sum']
      exact Finset.sum_congr rfl fun d _ => by rw [mean_coe, ← EReal.coe_mul]
    rw [hM, sqs_coe, cnt_coe, ← EReal.coe_mul, ← EReal.coe_sub]
  -- the direct numerator, as a real number
  have hR : ∑ n ∈ rows s g, ∑ d : Fin 512,
        ((r n d : EReal) - mean s (fun n d => (r n d : EReal)) g d) * ((r n d : EReal) - mean s (fun n d => (r n d : EReal)) g d)
      = ((∑ n ∈ rows s g, ∑ d : Fin 512, (r n d - (∑ k ∈ rows s g, r k d) * (1 / max ((rows s g).card : ℝ) 1))
          * (r n d - (∑ k ∈ rows s g, r k d) * (1 / max ((rows s g).card : ℝ) 1)) : ℝ) : EReal) := by
    rw [coe_sum']
    refine Finset.sum_congr rfl fun n _ => ?_
    rw [coe_sum']
    exact Finset.sum_congr rfl fun d _ => by rw [mean_coe, ← EReal.coe_sub, ← EReal.coe_mul]
  refine (congrArg (fun z => max z 0) hK).trans (Eq.trans ?_ hR.symm)
  rw [← real_identity, ← EReal.coe_zero, ← coe_max', max_eq_left (real_nonneg _ _ _)]

end Cert.SegSpec

end
-- ==== Proof.Bridge.lean ====
import proofs.«431362_j84052509982804_3_alg».proof.Proof.KResult
import proofs.«431362_j84052509982804_3_alg».proof.Proof.RefValue
import proofs.«431362_j84052509982804_3_alg».proof.Proof.SegAlgebra

/-!
# The two programs' results agree

Both results are the common last stretch of a per-group count and a per-group mean distance. The counts are the same
function of the inputs; the kernel's mean distance is the expanded formula and the reference's the direct one, equal
over real features.
-/

noncomputable section

open Idealize.ShloMosaic Idealize.ShloMosaic.TcCoe Idealize.SL.Sem Idealize.ShloMosaic.ValueIdx

namespace Cert.Bridge

open Cert.KernelIdeal Cert.KernelIdeal.Gen Cert.SegSpec Cert.KernelIdeal.Arrays Cert.KernelIdeal.Tail

/-- From real features, the kernel's result (the common last stretch of its counts and mean distances, read off its two
    output arrays) is the reference's result on the same inputs. -/
theorem results_agree (m : (ℓ : Loc nD τ sig) → Buf (Elt Ideal) ℓ) (c : Dev nD)
    (hfin : ∀ i, ∃ r : ℝ, m ((c : Thread nD τ).loc main_arg0) i = (r : EReal)) :
    tail (F := Ideal) bcast_S_S2048 shapeCasts_S2048_S4x512 reducesTo_S4x512_S4_d1 bcast_S_S4 reducesTo_S4_S_d0 h_S_
        (countK (auxArr m c)) (distKv (sumsArr m c) (auxArr m c))
      = Cert.ReferenceIdeal.Read.val_main_v46 (F := Ideal) (m ((c : Thread nD τ).loc main_arg0))
          (m ((c : Thread nD τ).loc main_arg1)) (m ((c : Thread nD τ).loc main_arg2)) := by
  -- the reference's result is the same last stretch, of its own counts and mean distances
  refine Eq.trans ?_ (Cert.ReferenceIdeal.RefValue.result_eq _ _ _).symm
  -- the counts: both are the group's count
  have hc : countK (F := Ideal) (auxArr m c)
      = Cert.ReferenceIdeal.Read.val_main_v6 (F := Ideal) (m ((c : Thread nD τ).loc main_arg1))
          (m ((c : Thread nD τ).loc main_arg2)) := by
    funext i
    obtain ⟨g, rfl⟩ : ∃ g : Fin 2048, i = ix1 g := ⟨i 0, eq_ix1 i⟩
    exact (Cert.KernelIdeal.Result.count_result m c g).trans (Cert.ReferenceIdeal.RefValue.count_eq _ _ g).symm
  -- the mean distances: the expanded formula against the direct one, equal over real features
  have hd : distKv (F := Ideal) (sumsArr m c) (auxArr m c)
      = Cert.ReferenceIdeal.Read.val_main_v28 (F := Ideal) (m ((c : Thread nD τ).loc main_arg0))
          (m ((c : Thread nD τ).loc main_arg1)) (m ((c : Thread nD τ).loc main_arg2)) := by
    funext i
    obtain ⟨g, rfl⟩ : ∃ g : Fin 2048, i = ix1 g := ⟨i 0, eq_ix1 i⟩
    refine (Cert.KernelIdeal.Result.dist_result m c g).trans ?_
    refine (distK_eq_distR (words m c) (feats m c) (fun n d => hfin (ix2 n d)) g).trans ?_
    exact (Cert.ReferenceIdeal.RefValue.dist_eq _ _ _ g).symm
  rw [hc, hd]

end Cert.Bridge

end
-- ==== Proof.FiniteInputs.lean ====
import proofs.«431362_j84052509982804_3_alg».proof.Pre_finite_inputs
import proofs.«431362_j84052509982804_3_alg».proof.Proof.Gen.Pre_finite_inputs
import Idealize.ShloMosaic.PureOps.Ideal
import Idealize.ShloMosaic.Lib.ReduceAll
import Idealize.ShloMosaic.Lib.ValueIdx

/-!
# The precondition, read back: every feature is a real number

The precondition is `all (|x| < +∞)` over the feature array. An extended real whose absolute value `max x (-x)` is
below `+∞` is neither `+∞` nor `-∞`, so it is a real.
-/

noncomputable section

namespace Cert.FiniteInputs

open Idealize.ShloMosaic Idealize.ShloMosaic.ValueIdx

/-- An extended real whose absolute value `max x (-x)` is below `+∞` is a real: at `-∞` the maximum is `-(-∞) = +∞`,
    at `+∞` it is `+∞` itself. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The pattern with all-ones exponent, zero fraction and no sign denotes `+∞`. -/
private theorem ofBits_inf : Ideal.ofBits .f32 0x7F800000#32 = (⊤ : EReal) := by
  simp [Ideal.ofBits, Ideal.ieee]

/-- A strict comparison that answered one holds. -/
private theorem lt_of_cmp_olt (x y : EReal) (e : Ideal.cmp .olt x y = 1#1) : x < y := by
  by_contra hn
  simp [Ideal.cmp, hn] at e

/-- Under the precondition every entry of the feature array is a real number. -/
theorem real_of_pre (a0 : FVec Ideal Cert.Pre_finite_inputs.S65536x512 .f32) (a1 a2 : IVec Cert.Pre_finite_inputs.S65536 32)
    (h : Cert.Pre_finite_inputs.fn (F := Ideal) a0 a1 a2 = fun _ => 1#1) :
    ∀ i, ∃ r : ℝ, a0 i = (r : EReal) := by
  intro i
  -- the reduction by `and` over both axes came out one, so the comparison is one at every index
  have h0 := congrFun h ValueIdx.ix0
  dsimp only [Cert.Pre_finite_inputs.fn] at h0
  -- the result of a reduction over all axes has one index
  haveI : Subsingleton Cert.Pre_finite_inputs.S_.Idx := ⟨fun _ _ => funext fun d => d.elim0⟩
  have hi := Host.reduce_andi_all _ _ _ _ _ h0 i
  -- at index `i` the comparison is `max (a0 i) (-(a0 i)) < +∞`
  have hc : Ideal.cmp .olt (max (a0 i) (-(a0 i))) (Ideal.ofBits .f32 0x7F800000#32) = 1#1 := hi
  rw [ofBits_inf] at hc
  exact real_of_abs_lt_top (a0 i) (lt_of_cmp_olt _ _ hc)

end Cert.FiniteInputs

end
-- ==== Proof.lean ====
/-
  Segment statistics by one-hot products against segment sums: the proof of `Cert.Claim`.

  Inputs: 65536 rows of 512 features, and per row a segment word `demographic · 512 + label`; group `g < 2048` owns
  the rows whose word is `g`, a word outside that range belongs to no group (both programs drop such rows).

  The kernel walks the rows in 16 blocks of 4096, two halves of 8. Per block it builds the one-hot matrix of "row's
  word is `g`" and multiplies it into the features (twice: with the features and with the features minus themselves,
  which over real entries is zero) and into a three-column matrix (one, the row's squared norm, that minus itself), and
  adds the products into two blocks it carries across the half. After the region the two halves are added, giving per
  group the count, the coordinate sums and the sum of squared norms, from which
  `max (∑‖x‖² - count · ‖mean‖², 0) / max count 1`.

  The reference computes count and sums by segment sums, reads each row's group mean back through a gather, and
  segment-sums the squared distances: `(∑ rows ∑ d (x - mean)²) / max count 1`.

  Over real features the two per-group values agree: expanding the square, the cross term is `-2 count ‖mean‖²`, and
  the direct form is a sum of squares, so the clamp at zero does nothing. The precondition makes every feature real.
  Both programs then apply the same last stretch to the counts and the per-group values.

  Modules: SegSpec (the common vocabulary), SegAlgebra (the identity), SegBlocks (the blocks' shares add up),
  FiniteInputs (the precondition read back), RefScatter / RefValue (the reference in that vocabulary), KPay / KPayAux
  (the body's stored values at an index), KCase / KBlocks / KAccum / KFinal (what the output blocks and arrays hold),
  KTail / KResult (the program after the region), Bridge (the two results agree).
-/
import proofs.«431362_j84052509982804_3_alg».proof.Defs
import proofs.«431362_j84052509982804_3_alg».proof.Proof.Gen.Kernel
import proofs.«431362_j84052509982804_3_alg».proof.Proof.Gen.Kernel.Frame
import proofs.«431362_j84052509982804_3_alg».proof.Proof.Gen.KernelIdeal
import proofs.«431362_j84052509982804_3_alg».proof.Proof.Gen.KernelIdeal.Frame
import proofs.«431362_j84052509982804_3_alg».proof.Proof.Gen.ReferenceIdeal
import proofs.«431362_j84052509982804_3_alg».proof.Proof.Gen.Pre_finite_inputs
import proofs.«431362_j84052509982804_3_alg».proof.Proof.KFinal
import proofs.«431362_j84052509982804_3_alg».proof.Proof.Bridge
import proofs.«431362_j84052509982804_3_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: narrowing to bf16 and widening back is the identity over the extended reals,
    once on the feature block and once on the column of squared norms. -/
theorem preserves : Cert.preserves_Kernel_KernelIdeal :=
  ⟨IdealRules.truncf_extf.statement _ .f32 .bf16, IdealRules.truncf_extf.statement _ .f32 .bf16⟩

/-- From real features the kernel's result and the reference's are the same extended real. -/
theorem algebraic : Cert.algebraic_KernelIdeal_ReferenceIdeal := by
  intro m ρ m' ρ' hpre hagree
  have hfin : ∀ (c : Dev Cert.KernelIdeal.nD) i,
      ∃ r : ℝ, m ((c.tc : Thread Cert.KernelIdeal.nD Cert.KernelIdeal.τ).loc Cert.KernelIdeal.main_arg0) i = (r : EReal) :=
    fun c => Cert.FiniteInputs.real_of_pre _ _ _ (hpre c)
  refine ⟨_, Cert.KernelIdeal.Final.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2]
  exact (Cert.Bridge.results_agree m c (hfin c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
